-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x64x2 : Shape := ⟨3, ![128, 64, 2]⟩
abbrev S128x64x128x128 : Shape := ⟨4, ![128, 64, 128, 128]⟩
abbrev S_ : Shape := ⟨0, ![]⟩

class Facts : Prop where
  bcast_S_S128x64x128x128 : S_.BroadcastsInDim S128x64x128x128 (![] : Fin 0 → Fin S128x64x128x128.rank)
  reducesTo_S128x64x128x128_S_d0_1_2_3 : S128x64x128x128.ReducesTo [0, 1, 2, 3] S_
  h_S_ : 0 < S_.numel

variable [Facts]

def fn {F : FTy → Type} [FloatOps F] (main_arg0 : IVec S128x64x2 32) (main_arg1 : FVec F S128x64x128x128 .f32) : IVec S_ 1 :=
  let main_v0 : FVec F S128x64x128x128 .f32 := Host.absf main_arg1
  let main_cst : FVec F S_ .f32 := constant S_ .f32 0x7F800000#32
  let main_v1 : FVec F S128x64x128x128 .f32 := broadcastInDim S128x64x128x128 ![] bcast_S_S128x64x128x128 main_cst
  let main_v2 : IVec S128x64x128x128 1 := cmpf .olt main_v0 main_v1
  let main_c : IVec S_ 1 := constantI S_ 1 1#1
  let main_v3 : IVec S_ 1 := (fun x v => Host.reduce IntOp.andi x v reducesTo_S128x64x128x128_S_d0_1_2_3 h_S_) main_v2 main_c
  main_v3
-- ==== Kernel.lean ====
abbrev S128x64x2 : Shape := ⟨3, ![128, 64, 2]⟩
abbrev S128x64x128x128 : Shape := ⟨4, ![128, 64, 128, 128]⟩
abbrev S128x64 : Shape := ⟨2, ![128, 64]⟩
abbrev S8x64x2 : Shape := ⟨3, ![8, 64, 2]⟩
abbrev S8x64x16x128 : Shape := ⟨4, ![8, 64, 16, 128]⟩
abbrev S8x64 : Shape := ⟨2, ![8, 64]⟩
abbrev S8x64x1 : Shape := ⟨3, ![8, 64, 1]⟩
abbrev S1x1x16x1 : Shape := ⟨4, ![1, 1, 16, 1]⟩
abbrev S1x1x1x128 : Shape := ⟨4, ![1, 1, 1, 128]⟩
abbrev S8x64x1x1 : Shape := ⟨4, ![8, 64, 1, 1]⟩
abbrev S8x64x16x1 : Shape := ⟨4, ![8, 64, 16, 1]⟩
abbrev S8x64x1x128 : Shape := ⟨4, ![8, 64, 1, 128]⟩
abbrev S8x64x16 : Shape := ⟨3, ![8, 64, 16]⟩
abbrev S_ : Shape := ⟨0, ![]⟩

abbrev nBuf : Space → Nat
  | .hbm => 7
  | .vmem => 7
  | .smem => 0
  | _ => 0

abbrev bufTy : (tb : Table) → Fin (tcTables nBuf tb) → BufTy
  | .hbm, ⟨0, _⟩ => ⟨S128x64x2, .i32⟩
  | .hbm, ⟨1, _⟩ => ⟨S128x64x128x128, .f32⟩
  | .hbm, ⟨2, _⟩ => ⟨S128x64, .i32⟩
  | .hbm, ⟨3, _⟩ => ⟨S_, .i32⟩
  | .hbm, ⟨4, _⟩ => ⟨S128x64, .i32⟩
  | .hbm, ⟨5, _⟩ => ⟨S128x64, .i1⟩
  | .hbm, ⟨6, _⟩ => ⟨S128x64, .i1⟩
  | .local _ .vmem, ⟨0, _⟩ => ⟨S8x64x2, .i32⟩
  | .local _ .vmem, ⟨1, _⟩ => ⟨S8x64x2, .i32⟩
  | .local _ .vmem, ⟨2, _⟩ => ⟨S8x64x16x128, .f32⟩
  | .local _ .vmem, ⟨3, _⟩ => ⟨S8x64x16x128, .f32⟩
  | .local _ .vmem, ⟨4, _⟩ => ⟨S8x64, .i32⟩
  | .local _ .vmem, ⟨5, _⟩ => ⟨S8x64, .i32⟩
  | .local _ .vmem, ⟨6, _⟩ => ⟨S8x64, .f32⟩
  | _, _ => ⟨S128x64x2, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 8], ![false, false]⟩

def k0_cond2 (i : grid0.Coords) : BitVec 1 :=
  let arg1 : BitVec 32 := BitVec.ofNat 32 (i 1).val
  let c7_i32 : BitVec 32 := 7#32
  let v45 : BitVec 1 := Scalar.cmpi .eq arg1 c7_i32
  let v46 : BitVec 32 := Scalar.extui v45
  let c0_i32_15 : BitVec 32 := 0#32
  let v47 : BitVec 1 := Scalar.cmpi .ne v46 c0_i32_15
  v47

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x64x2 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x64x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x64 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S8x64_S8x64_0_0 : ∀ a, (![0, 0] : Fin 2 → Nat) a + S8x64.size a ≤ S8x64.size a
  h_S8x64 : 0 < S8x64.numel
  shapeCasts_S8x64_S8x64 : S8x64.ShapeCasts S8x64
  inb_S8x64x2_S8x64x2_0_0_0 : ∀ a, (![0, 0, 0] : Fin 3 → Nat) a + S8x64x2.size a ≤ S8x64x2.size a
  h_S8x64x2 : 0 < S8x64x2.numel
  slices_S8x64x2_o0_0_0_S8x64x1 : S8x64x2.Slices ![0, 0, 0] S8x64x1
  shapeCasts_S8x64x1_S8x64 : S8x64x1.ShapeCasts S8x64
  slices_S8x64x2_o0_0_1_S8x64x1 : S8x64x2.Slices ![0, 0, 1] S8x64x1
  iota_S1x1x16x1_d2_w32 : S1x1x16x1.Iotas .tc 32 [2]
  iota_S1x1x1x128_d3_w32 : S1x1x1x128.Iotas .tc 32 [3]
  shapeCasts_S8x64_S8x64x1x1 : S8x64.ShapeCasts S8x64x1x1
  broadcasts_S8x64x1x1_S8x64x16x1 : S8x64x1x1.Broadcasts S8x64x16x1
  broadcasts_S1x1x16x1_S8x64x16x1 : S1x1x16x1.Broadcasts S8x64x16x1
  natLt_1_32 : 1 < 32
  broadcasts_S8x64x1x1_S8x64x1x128 : S8x64x1x1.Broadcasts S8x64x1x128
  broadcasts_S1x1x1x128_S8x64x1x128 : S1x1x1x128.Broadcasts S8x64x1x128
  inb_S8x64x16x128_S8x64x16x128_0_0_0_0 : ∀ a, (![0, 0, 0, 0] : Fin 4 → Nat) a + S8x64x16x128.size a ≤ S8x64x16x128.size a
  h_S8x64x16x128 : 0 < S8x64x16x128.numel
  broadcasts_S8x64x16x1_S8x64x16x128 : S8x64x16x1.Broadcasts S8x64x16x128
  broadcasts_S8x64x1x128_S8x64x16x128 : S8x64x1x128.Broadcasts S8x64x16x128
  reduces_S8x64x16x128_S8x64x16 : S8x64x16x128.Reduces [3] S8x64x16
  reduces_S8x64x16_S8x64 : S8x64x16.Reduces [2] S8x64
  bcast_S_S128x64 : S_.BroadcastsInDim S128x64 (![] : Fin 0 → Fin S128x64.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x64x2.size a ≤ S128x64x2.size a
  hwx0_0 : ∀ i : grid0.Coords, EltTy.bits .i32 = 32 ∨ (Rect.block (s := S128x64x2) S8x64x2.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x64x16x128.size a ≤ S128x64x128x128.size a
  hwx0_1 : ∀ i : grid0.Coords, EltTy.bits .f32 = 32 ∨ (Rect.block (s := S128x64x128x128) S8x64x16x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x64.size a ≤ S128x64.size a
  hwx0_2 : ∀ i : grid0.Coords, EltTy.bits .i32 = 32 ∨ (Rect.block (s := S128x64) S8x64.size (cc0_transform_2 i) (hinb0_2 i)).WholeWords (EltTy.packing .i32)

variable [Facts₀]

abbrev win0_0 : Pipeline.Window sig grid0 :=
  Pipeline.Window.ofSpec (Memref.whole main_arg0) S8x64x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8x64x16x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S128x64x2 : Shape := ⟨3, ![128, 64, 2]⟩
abbrev S128x64x128x128 : Shape := ⟨4, ![128, 64, 128, 128]⟩
abbrev S128x64x1 : Shape := ⟨3, ![128, 64, 1]⟩
abbrev S128x64 : Shape := ⟨2, ![128, 64]⟩
abbrev S_ : Shape := ⟨0, ![]⟩
abbrev S128 : Shape := ⟨1, ![128]⟩
abbrev S128x1 : Shape := ⟨2, ![128, 1]⟩
abbrev S64 : Shape := ⟨1, ![64]⟩
abbrev S1x64 : Shape := ⟨2, ![1, 64]⟩
abbrev S128x64x4 : Shape := ⟨3, ![128, 64, 4]⟩

abbrev nBuf : Space → Nat
  | .hbm => 82
  | .vmem => 0
  | .smem => 0
  | _ => 0

abbrev bufTy : (tb : Table) → Fin (tcTables nBuf tb) → BufTy
  | .hbm, ⟨0, _⟩ => ⟨S128x64x2, .i32⟩
  | .hbm, ⟨1, _⟩ => ⟨S128x64x128x128, .f32⟩
  | .hbm, ⟨2, _⟩ => ⟨S128x64x2, .i32⟩
  | .hbm, ⟨3, _⟩ => ⟨S128x64x1, .i32⟩
  | .hbm, ⟨4, _⟩ => ⟨S128x64, .i32⟩
  | .hbm, ⟨5, _⟩ => ⟨S128x64x1, .i32⟩
  | .hbm, ⟨6, _⟩ => ⟨S128x64, .i32⟩
  | .hbm, ⟨7, _⟩ => ⟨S_, .i32⟩
  | .hbm, ⟨8, _⟩ => ⟨S128x64, .i32⟩
  | .hbm, ⟨9, _⟩ => ⟨S128x64, .i1⟩
  | .hbm, ⟨10, _⟩ => ⟨S_, .i32⟩
  | .hbm, ⟨11, _⟩ => ⟨S128x64, .i32⟩
  | .hbm, ⟨12, _⟩ => ⟨S128x64, .i1⟩
  | .hbm, ⟨13, _⟩ => ⟨S128x64, .i1⟩
  | .hbm, ⟨14, _⟩ => ⟨S_, .i32⟩
  | .hbm, ⟨15, _⟩ => ⟨S128x64, .i32⟩
  | .hbm, ⟨16, _⟩ => ⟨S128x64, .i1⟩
  | .hbm, ⟨17, _⟩ => ⟨S128x64, .i1⟩
  | .hbm, ⟨18, _⟩ => ⟨S_, .i32⟩
  | .hbm, ⟨19, _⟩ => ⟨S128x64, .i32⟩
  | .hbm, ⟨20, _⟩ => ⟨S128x64, .i1⟩
  | .hbm, ⟨21, _⟩ => ⟨S128x64, .i1⟩
  | .hbm, ⟨22, _⟩ => ⟨S128, .i32⟩
  | .hbm, ⟨23, _⟩ => ⟨S128x1, .i32⟩
  | .hbm, ⟨24, _⟩ => ⟨S64, .i32⟩
  | .hbm, ⟨25, _⟩ => ⟨S1x64, .i32⟩
  | .hbm, ⟨26, _⟩ => ⟨S_, .i32⟩
  | .hbm, ⟨27, _⟩ => ⟨S_, .i32⟩
  | .hbm, ⟨28, _⟩ => ⟨S_, .i32⟩
  | .hbm, ⟨29, _⟩ => ⟨S128x64, .i32⟩
  | .hbm, ⟨30, _⟩ => ⟨S128x64, .i32⟩
  | .hbm, ⟨31, _⟩ => ⟨S_, .i32⟩
  | .hbm, ⟨32, _⟩ => ⟨S128x64, .i32⟩
  | .hbm, ⟨33, _⟩ => ⟨S128x64, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S128x64, .i32⟩
  | .hbm, ⟨38, _⟩ => ⟨S128x64, .i32⟩
  | .hbm, ⟨39, _⟩ => ⟨S_, .i32⟩
  | .hbm, ⟨40, _⟩ => ⟨S128x64, .i32⟩
  | .hbm, ⟨41, _⟩ => ⟨S128x64, .i32⟩
  | .hbm, ⟨42, _⟩ => ⟨S_, .i32⟩
  | .hbm, ⟨43, _⟩ => ⟨S128x1, .i32⟩
  | .hbm, ⟨44, _⟩ => ⟨S128x1, .i1⟩
  | .hbm, ⟨45, _⟩ => ⟨S_, .i32⟩
  | .hbm, ⟨46, _⟩ => ⟨S128x1, .i32⟩
  | .hbm, ⟨47, _⟩ => ⟨S128x1, .i32⟩
  | .hbm, ⟨48, _⟩ => ⟨S128x1, .i32⟩
  | .hbm, ⟨49, _⟩ => ⟨S_, .i32⟩
  | .hbm, ⟨50, _⟩ => ⟨S1x64, .i32⟩
  | .hbm, ⟨51, _⟩ => ⟨S1x64, .i1⟩
  | .hbm, ⟨52, _⟩ => ⟨S_, .i32⟩
  | .hbm, ⟨53, _⟩ => ⟨S1x64, .i32⟩
  | .hbm, ⟨54, _⟩ => ⟨S1x64, .i32⟩
  | .hbm, ⟨55, _⟩ => ⟨S1x64, .i32⟩
  | .hbm, ⟨56, _⟩ => ⟨S_, .i32⟩
  | .hbm, ⟨57, _⟩ => ⟨S128x64, .i32⟩
  | .hbm, ⟨58, _⟩ => ⟨S128x64, .i1⟩
  | .hbm, ⟨59, _⟩ => ⟨S_, .i32⟩
  | .hbm, ⟨60, _⟩ => ⟨S128x64, .i32⟩
  | .hbm, ⟨61, _⟩ => ⟨S128x64, .i32⟩
  | .hbm, ⟨62, _⟩ => ⟨S128x64, .i32⟩
  | .hbm, ⟨63, _⟩ => ⟨S_, .i32⟩
  | .hbm, ⟨64, _⟩ => ⟨S128x64, .i32⟩
  | .hbm, ⟨65, _⟩ => ⟨S128x64, .i1⟩
  | .hbm, ⟨66, _⟩ => ⟨S_, .i32⟩
  | .hbm, ⟨67, _⟩ => ⟨S128x64, .i32⟩
  | .hbm, ⟨68, _⟩ => ⟨S128x64, .i32⟩
  | .hbm, ⟨69, _⟩ => ⟨S128x64, .i32⟩
  | .hbm, ⟨70, _⟩ => ⟨S128x64, .i32⟩
  | .hbm, ⟨71, _⟩ => ⟨S128x64, .i32⟩
  | .hbm, ⟨72, _⟩ => ⟨S128x64x1, .i32⟩
  | .hbm, ⟨73, _⟩ => ⟨S128x64x1, .i32⟩
  | .hbm, ⟨74, _⟩ => ⟨S128x64x1, .i32⟩
  | .hbm, ⟨75, _⟩ => ⟨S128x64x1, .i32⟩
  | .hbm, ⟨76, _⟩ => ⟨S128x64x4, .i32⟩
  | .hbm, ⟨77, _⟩ => ⟨S128x64, .f32⟩
  | .hbm, ⟨78, _⟩ => ⟨S_, .f32⟩
  | .hbm, ⟨79, _⟩ => ⟨S128x64, .f32⟩
  | .hbm, ⟨80, _⟩ => ⟨S128x64, .i1⟩
  | .hbm, ⟨81, _⟩ => ⟨S128x64, .i1⟩
  | _, _ => ⟨S128x64x2, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_v5 : Ref sig .tc := ⟨.hbm, 8, rfl⟩
abbrev main_v6 : Ref sig .tc := ⟨.hbm, 9, rfl⟩
abbrev main_c_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_c_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_3 : Ref sig .tc := ⟨.hbm, 26, rfl⟩
abbrev main_c_4 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_v20 : Ref sig .tc := ⟨.hbm, 33, rfl⟩
abbrev main_c_5 : Ref sig .tc := ⟨.hbm, 34, rfl⟩
abbrev main_c_6 : Ref sig .tc := ⟨.hbm, 35, rfl⟩
abbrev main_call1_v0 : Ref sig .tc := ⟨.hbm, 36, rfl⟩
abbrev main_call1_v1 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_v21 : Ref sig .tc := ⟨.hbm, 41, rfl⟩
abbrev main_c_7 : Ref sig .tc := ⟨.hbm, 42, rfl⟩
abbrev main_v22 : Ref sig .tc := ⟨.hbm, 43, rfl⟩
abbrev main_v23 : Ref sig .tc := ⟨.hbm, 44, rfl⟩
abbrev main_c_8 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_c_9 : Ref sig .tc := ⟨.hbm, 49, rfl⟩
abbrev main_v27 : Ref sig .tc := ⟨.hbm, 50, rfl⟩
abbrev main_v28 : Ref sig .tc := ⟨.hbm, 51, rfl⟩
abbrev main_c_10 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_c_11 : Ref sig .tc := ⟨.hbm, 56, rfl⟩
abbrev main_v32 : Ref sig .tc := ⟨.hbm, 57, rfl⟩
abbrev main_v33 : Ref sig .tc := ⟨.hbm, 58, rfl⟩
abbrev main_c_12 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_c_13 : Ref sig .tc := ⟨.hbm, 63, rfl⟩
abbrev main_v37 : Ref sig .tc := ⟨.hbm, 64, rfl⟩
abbrev main_v38 : Ref sig .tc := ⟨.hbm, 65, rfl⟩
abbrev main_c_14 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_cst : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩

abbrev nD : Nat := 1
abbrev τ : Topo := Topo.v7x

variable {F : FTy → Type} [FloatOps F]

class Facts₀ : Prop where
  slices_S128x64x2_S128x64x1_0_0_0 : S128x64x2.Slices ![0, 0, 0] S128x64x1
  shapeCasts_S128x64x1_S128x64 : S128x64x1.ShapeCasts S128x64
  slices_S128x64x2_S128x64x1_0_0_1 : S128x64x2.Slices ![0, 0, 1] S128x64x1
  bcast_S_S128x64 : S_.BroadcastsInDim S128x64 (![] : Fin 0 → Fin S128x64.rank)
  bcast_S128_S128x1_0 : S128.BroadcastsInDim S128x1 (![0] : Fin 1 → Fin S128x1.rank)
  bcast_S64_S1x64_1 : S64.BroadcastsInDim S1x64 (![1] : Fin 1 → Fin S1x64.rank)
  bcast_S_S128x1 : S_.BroadcastsInDim S128x1 (![] : Fin 0 → Fin S128x1.rank)
  bcast_S_S1x64 : S_.BroadcastsInDim S1x64 (![] : Fin 0 → Fin S1x64.rank)
  bcast_S128x1_S128x64_0_1 : S128x1.BroadcastsInDim S128x64 (![0, 1] : Fin 2 → Fin S128x64.rank)
  bcast_S1x64_S128x64_0_1 : S1x64.BroadcastsInDim S128x64 (![0, 1] : Fin 2 → Fin S128x64.rank)
  bcast_S128x64_S128x64x1_0_1 : S128x64.BroadcastsInDim S128x64x1 (![0, 1] : Fin 2 → Fin S128x64x1.rank)
  concatenates_S128x64x1_S128x64x1_S128x64x1_S128x64x1_S128x64x4_d2 : Shape.Concatenates [S128x64x1, S128x64x1, S128x64x1, S128x64x1] S128x64x4 2
  gather_S128x64x128x128_S128x64x4_S128x64_n_0123_n_n_0123_2_1111_wf : GatherDims.WF S128x64x128x128 S128x64x4 S128x64 [] [0, 1, 2, 3] [] [0, 1, 2, 3] [] 2 ![1, 1, 1, 1]

variable [Facts₀]

def gather_S128x64x128x128_S128x64x4_S128x64_n_0123_n_n_0123_2_1111 : GatherDims S128x64x128x128 S128x64x4 S128x64 where
  offsetDims := []
  collapsedSliceDims := [0, 1, 2, 3]
  operandBatchingDims := []
  startIndicesBatchingDims := []
  startIndexMap := [0, 1, 2, 3]
  indexVectorDim := 2
  sliceSizes := ![1, 1, 1, 1]
  wf := gather_S128x64x128x128_S128x64x4_S128x64_n_0123_n_n_0123_2_1111_wf

class Facts : Prop extends Facts₀ where

variable [Facts]
-- ==== Proof.Pieces.lean ====
import proofs.«405384_j41841571398294_1_alg».proof.Proof.Gen.KernelIdeal.Frame
import Idealize.ShloMosaic.Lib.Pipeline.Value
import Idealize.ShloMosaic.Lib.Tactic

/-!
  What each control case of the kernel body leaves behind, as pure terms of what it loaded.

  The body keeps a running sum in a scratch block.  At the first row tile of a batch block it stores zeros into the
  scratch and then adds the tile's partial sum; at every later tile it adds the partial sum to what the tile before
  left; at the last tile it also reads the finished sum back and stores the result words into the output block.
  Each lemma reads the stores a case makes back as one value: the later store covers the block, and a load that follows
  a store of the whole block reads the stored value.
-/

noncomputable section

open Idealize.ShloMosaic Idealize.ShloMosaic.TcCoe Idealize.SL.Sem
open Idealize.ShloMosaic.Pipeline (Dat)

namespace Cert.KValue

open Cert.KernelIdeal Cert.KernelIdeal.Gen

variable {F : FTy → Type} [FloatOps F]

/-- All-zero offsets, in the three ranks the body loads and stores at. -/
theorem hz : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A middle tile: the scratch ends at (what it held) + (the tile's partial sum). -/
theorem sB (c : Dev nD) (i : grid0.Coords) (a2 : Memref sig .tc .vmem S8x64x2 .i32) (h2 : a2.IsWhole)
    (a3 : Memref sig .tc .vmem S8x64x16x128 .f32) (h3 : a3.IsWhole) (a4 : Memref sig .tc .vmem S8x64 .i32) (h4 : a4.IsWhole)
    (a5 : Memref sig .tc .vmem S8x64 .f32) (h5 : a5.IsWhole) (hc0 : ¬cond0_0 i) (hc1 : ¬cond0_1 i)
    (x0 : Vec F S8x64x2 .i32) (x1 : Vec F S8x64x16x128 .f32) (xs0 : Vec F S8x64 .f32) :
    sout0_B_0 c i a2 h2 a3 h3 a4 h4 a5 h5 hc0 hc1 x0 x1 xs0 = k0_pay1 (k0_pay6 i x0 x1) xs0 := by
  unfold sout0_B_0
  rw [View.read_writes_eq_canon _ _ _ (scover0_B_0 c i a2 h2 a3 h3 a4 h4 a5 h5 hc0 hc1 x0 x1 xs0)]
  unfold kernelRun0_B
  dsimp only
  sl_unfold_words
  rw [View.canon_unit_zero hz]
  simp only [View.readAt_eq_ld, h2.read_unread, h3.read_unread, h5.read_unread, View.ld_unit_zero (S := S8x64) hz,
    View.ld_unit_zero (S := S8x64x2) hz3, View.ld_unit_zero (S := S8x64x16x128) hz4]

/-- The first tile: the scratch is reset to zeros, then the tile's partial sum is added to those zeros. -/
theorem sA (c : Dev nD) (i : grid0.Coords) (a2 : Memref sig .tc .vmem S8x64x2 .i32) (h2 : a2.IsWhole)
    (a3 : Memref sig .tc .vmem S8x64x16x128 .f32) (h3 : a3.IsWhole) (a4 : Memref sig .tc .vmem S8x64 .i32) (h4 : a4.IsWhole)
    (a5 : Memref sig .tc .vmem S8x64 .f32) (h5 : a5.IsWhole) (hc0 : cond0_0 i) (hc1 : ¬cond0_1 i)
    (x0 : Vec F S8x64x2 .i32) (x1 : Vec F S8x64x16x128 .f32) :
    sout0_A_0 c i a2 h2 a3 h3 a4 h4 a5 h5 hc0 hc1 x0 x1 = k0_pay1 (k0_pay6 i x0 x1) (k0_pay3 (F := F)) := by
  unfold sout0_A_0
  rw [View.read_writes_eq_canon _ _ _ (scover0_A_0 c i a2 h2 a3 h3 a4 h4 a5 h5 hc0 hc1 x0 x1)]
  unfold kernelRun0_A
  dsimp only
  sl_unfold_words
  rw [View.canon_cons_unit_zero (S := S8x64) hz, View.readCov_unit_zero (S := S8x64) _ hz]
  simp only [View.readAt_eq_ld, h2.read_unread, h3.read_unread, View.ld_unit_zero (S := S8x64x2) hz3,
    View.ld_unit_zero (S := S8x64x16x128) hz4]

/-- The last tile: the scratch ends as at a middle tile. -/
theorem sC (c : Dev nD) (i : grid0.Coords) (a2 : Memref sig .tc .vmem S8x64x2 .i32) (h2 : a2.IsWhole)
    (a3 : Memref sig .tc .vmem S8x64x16x128 .f32) (h3 : a3.IsWhole) (a4 : Memref sig .tc .vmem S8x64 .i32) (h4 : a4.IsWhole)
    (a5 : Memref sig .tc .vmem S8x64 .f32) (h5 : a5.IsWhole) (hc0 : ¬cond0_0 i) (hc1 : cond0_1 i)
    (x0 : Vec F S8x64x2 .i32) (x1 : Vec F S8x64x16x128 .f32) (xs0 : Vec F S8x64 .f32) :
    sout0_C_0 c i a2 h2 a3 h3 a4 h4 a5 h5 hc0 hc1 x0 x1 xs0 = k0_pay1 (k0_pay6 i x0 x1) xs0 := by
  unfold sout0_C_0
  rw [View.read_writes_eq_canon _ _ _ (scover0_C_0 c i a2 h2 a3 h3 a4 h4 a5 h5 hc0 hc1 x0 x1 xs0)]
  unfold kernelRun0_C
  dsimp only
  sl_unfold_words
  rw [View.canon_unit_zero hz]
  simp only [View.readAt_eq_ld, h2.read_unread, h3.read_unread, h5.read_unread, View.ld_unit_zero (S := S8x64) hz,
    View.ld_unit_zero (S := S8x64x2) hz3, View.ld_unit_zero (S := S8x64x16x128) hz4]

/-- The last tile's output block: the result words of the two coordinate planes and of the finished sum. -/
theorem oC (c : Dev nD) (i : grid0.Coords) (a2 : Memref sig .tc .vmem S8x64x2 .i32) (h2 : a2.IsWhole)
    (a3 : Memref sig .tc .vmem S8x64x16x128 .f32) (h3 : a3.IsWhole) (a4 : Memref sig .tc .vmem S8x64 .i32) (h4 : a4.IsWhole)
    (a5 : Memref sig .tc .vmem S8x64 .f32) (h5 : a5.IsWhole) (hc0 : ¬cond0_0 i) (hc1 : cond0_1 i)
    (x0 : Vec F S8x64x2 .i32) (x1 : Vec F S8x64x16x128 .f32) (xs0 : Vec F S8x64 .f32) :
    out0_C_2 c i a2 h2 a3 h3 a4 h4 a5 h5 hc0 hc1 x0 x1 xs0
      = k0_pay2 (k0_pay4 x0) (k0_pay5 x0) (k0_pay1 (k0_pay6 i x0 x1) xs0) := by
  unfold out0_C_2
  rw [View.read_writes_eq_canon _ _ _ (cover0_C_2 c i a2 h2 a3 h3 a4 h4 a5 h5 hc0 hc1 x0 x1 xs0)]
  unfold kernelRun0_C
  dsimp only
  sl_unfold_words
  rw [View.canon_unit_zero hz]
  simp only [View.readAt_eq_ld, h2.read_unread, h3.read_unread, h5.read_unread, View.ld_unit_zero (S := S8x64) hz,
    View.ld_unit_zero (S := S8x64x2) hz3, View.ld_unit_zero (S := S8x64x16x128) hz4, View.readCov_unit_zero (S := S8x64) _ hz]

end Cert.KValue
end
-- ==== Proof.Spec.lean ====
import Idealize.ShloMosaic.PureOps.Ideal
import Idealize.ShloMosaic.Lib.ValueIdx

/-!
  What both programs compute, as one function of the two argument arrays.

  The coordinates array holds, for batch entry `b` and keypoint `k`, a column word `u` (component 0) and a row word
  `v` (component 1).  Both are clamped into `[0, 127]`; the heat map of `(b, k)` is read at the clamped (row, column);
  the result bit says that both words were in `[0, 127]` to begin with and that the value read exceeds the threshold.
-/

noncomputable section

namespace Cert.Spec

open Idealize.ShloMosaic Idealize.ShloMosaic.ValueIdx

/-- A signed word clamped into `[0, 127]`: `min 127 (max 0 x)`, as both programs compute it. -/
def clip (x : BitVec 32) : BitVec 32 := IntOp.minsi 127#32 (IntOp.maxsi 0#32 x)

/-- The clamped word is a natural number below 128. -/
theorem clip_lt (x : BitVec 32) : (clip x).toNat < 128 := by
  unfold clip IntOp.minsi IntOp.maxsi
  simp only [BitVec.slt, decide_eq_true_eq]
  split_ifs with h1 h2 h2
  · decide
  · simp only [BitVec.toInt_eq_toNat_cond] at h1 h2; decide
  · decide
  · have h3 := h2
    simp only [BitVec.toInt_eq_toNat_cond] at h1 h2
    have : x.toNat < 2 ^ 32 := x.isLt
    norm_num at h1 h2
    split_ifs at h1 h2 <;> omega

/-- The clamped word, read signed, is itself. -/
theorem clip_toInt (x : BitVec 32) : (clip x).toInt = ((clip x).toNat : Int) := by
  have h := clip_lt x
  rw [BitVec.toInt_eq_toNat_cond]
  split_ifs <;> omega

/-- The column word of `(b, k)`. -/
def uAt (co : IVec ⟨3, ![128, 64, 2]⟩ 32) (b : Fin 128) (k : Fin 64) : BitVec 32 := co (ix3 b k 0)
/-- The row word of `(b, k)`. -/
def vAt (co : IVec ⟨3, ![128, 64, 2]⟩ 32) (b : Fin 128) (k : Fin 64) : BitVec 32 := co (ix3 b k 1)

/-- The clamped row and column of `(b, k)`, as coordinates of a heat map. -/
def rowOf (co : IVec ⟨3, ![128, 64, 2]⟩ 32) (b : Fin 128) (k : Fin 64) : Fin 128 := ⟨(clip (vAt co b k)).toNat, clip_lt _⟩
def colOf (co : IVec ⟨3, ![128, 64, 2]⟩ 32) (b : Fin 128) (k : Fin 64) : Fin 128 := ⟨(clip (uAt co b k)).toNat, clip_lt _⟩

/-- The heat map of `(b, k)` read at the clamped (row, column). -/
def picked (co : IVec ⟨3, ![128, 64, 2]⟩ 32) (hm : FVec Ideal ⟨4, ![128, 64, 128, 128]⟩ .f32) (b : Fin 128) (k : Fin 64) : EReal :=
  hm (ix4 b k (rowOf co b k) (colOf co b k))

/-- Both words of `(b, k)` lie in `[0, 127]`: `v > -1`, `u > -1`, `v < 128`, `u < 128`, joined in this order. -/
def inRange (co : IVec ⟨3, ![128, 64, 2]⟩ 32) (b : Fin 128) (k : Fin 64) : BitVec 1 :=
  IntOp.andi (IntOp.andi (IntOp.andi (IntOp.cmpi .sgt (vAt co b k) 4294967295#32) (IntOp.cmpi .sgt (uAt co b k) 4294967295#32))
    (IntOp.cmpi .slt (vAt co b k) 128#32)) (IntOp.cmpi .slt (uAt co b k) 128#32)

/-- The result: in range, and the value read is above the threshold (the float word `0x3ECCCCCD`, the same on both sides). -/
def result (co : IVec ⟨3, ![128, 64, 2]⟩ 32) (hm : FVec Ideal ⟨4, ![128, 64, 128, 128]⟩ .f32) : IVec ⟨2, ![128, 64]⟩ 1 :=
  fun i => IntOp.andi (inRange co (i 0) (i 1))
    (FloatOps.cmpf (F := Ideal) .ogt (picked co hm (i 0) (i 1)) (Ideal.ofBits .f32 0x3ECCCCCD#32))

end Cert.Spec

end
-- ==== Proof.OneHot.lean ====
import Idealize.ShloMosaic.PureOps.Ideal
import Idealize.ShloMosaic.PureOps.Ideal.Laws

/-!
  Picking one element out of a tile by two one-hot masks.

  The kernel multiplies a [16, 128] tile of a heat map by a row mask and by a column mask, each the float value of a
  one-bit comparison, and sums over both axes.  Over the extended reals a product with 0 is 0 and a product with 1 is the
  factor itself, whatever the factor (no finiteness is needed), so the double sum is the one element where both masks are
  1, or 0 when the row mask is 0 everywhere.  The masks compare 32-bit words; the words here are small naturals, so the
  comparisons are comparisons of naturals.
-/

noncomputable section

open scoped BigOperators

namespace Cert.OneHot

open Idealize.ShloMosaic

/-- A one-bit word is 0 or 1. -/
theorem bit_cases (b : BitVec 1) : b = 0#1 ∨ b = 1#1 := by
  revert b; decide

/-- The float value of a one-bit word widened to 32 bits: 1 where the bit is set, else 0. -/
theorem sitofp_bit (b : BitVec 1) :
    FloatOps.sitofp (F := Ideal) .f32 (b.setWidth 32) = if b = 1#1 then (1 : EReal) else 0 := by
  rcases bit_cases b with rfl | rfl
  · show (((((0#1 : BitVec 1).setWidth 32).toInt : ℝ)) : EReal) = _
    rw [if_neg (by decide)]
    have : ((0#1 : BitVec 1).setWidth 32).toInt = 0 := by decide
    rw [this]; simp
  · show (((((1#1 : BitVec 1).setWidth 32).toInt : ℝ)) : EReal) = _
    rw [if_pos rfl]
    have : ((1#1 : BitVec 1).setWidth 32).toInt = 1 := by decide
    rw [this]; simp

/-- Equality of words as a bit. -/
theorem cmpi_eq_one_iff {a b : BitVec 32} : IntOp.cmpi .eq a b = 1#1 ↔ a = b := by
  unfold IntOp.cmpi
  by_cases h : a = b
  · subst h; simp
  · have hb : (a == b) = false := by simpa using h
    simp only [hb, BitVec.ofBool_false]
    exact ⟨fun h' => absurd h' (by decide), fun h' => absurd h' h⟩

/-- The row test: a word `z` below 128, shifted down by 16 times the tile number `t < 8`, equals the row number `r < 16`
    exactly when `z = 16 t + r` as naturals. -/
theorem row_test (z : BitVec 32) (hz : z.toNat < 128) (t : Nat) (ht : t < 8) (r : Nat) (hr : r < 16) :
    IntOp.cmpi .eq (IntOp.subi z (IntOp.muli (BitVec.ofNat 32 t) 16#32)) (BitVec.ofNat 32 r) = 1#1 ↔ z.toNat = 16 * t + r := by
  rw [cmpi_eq_one_iff]
  unfold IntOp.subi IntOp.muli
  constructor
  · intro h
    have h' := congrArg BitVec.toNat h
    simp only [BitVec.toNat_sub, BitVec.toNat_mul, BitVec.toNat_ofNat] at h'
    omega
  · intro h
    apply BitVec.eq_of_toNat_eq
    simp only [BitVec.toNat_sub, BitVec.toNat_mul, BitVec.toNat_ofNat]
    omega

/-- The column test: a word `z` below 128 equals the column number `w < 128` exactly when they agree as naturals. -/
theorem col_test (z : BitVec 32) (hz : z.toNat < 128) (w : Nat) (hw : w < 128) :
    IntOp.cmpi .eq z (BitVec.ofNat 32 w) = 1#1 ↔ z.toNat = w := by
  rw [cmpi_eq_one_iff]
  constructor
  · intro h
    have h' := congrArg BitVec.toNat h
    simp only [BitVec.toNat_ofNat] at h'
    omega
  · intro h
    apply BitVec.eq_of_toNat_eq
    simp only [BitVec.toNat_ofNat]
    omega

/-- Both masks one-hot: the double sum is the tile at the two hot positions. -/
theorem sum_pick (f : Fin 16 → Fin 128 → EReal) (M : Fin 16 → EReal) (N : Fin 128 → EReal) (r0 : Fin 16) (w0 : Fin 128)
    (hM : ∀ r, M r = if r = r0 then 1 else 0) (hN : ∀ w, N w = if w = w0 then 1 else 0) :
    ∑ r : Fin 16, ∑ w : Fin 128, f r w * M r * N w = f r0 w0 := by
  rw [Finset.sum_eq_single r0]
  · rw [Finset.sum_eq_single w0]
    · rw [hM, hN, if_pos rfl, if_pos rfl, mul_one, mul_one]
    · intro w _ hw; rw [hN, if_neg hw, mul_zero]
    · intro h; exact absurd (Finset.mem_univ _) h
  · intro r _ hr
    refine Finset.sum_eq_zero fun w _ => ?_
    rw [hM, if_neg hr, mul_zero, zero_mul]
  · intro h; exact absurd (Finset.mem_univ _) h

/-- The row mask 0 everywhere: the double sum is 0. -/
theorem sum_none (f : Fin 16 → Fin 128 → EReal) (M : Fin 16 → EReal) (N : Fin 128 → EReal) (hM : ∀ r, M r = 0) :
    ∑ r : Fin 16, ∑ w : Fin 128, f r w * M r * N w = 0 :=
  Finset.sum_eq_zero fun r _ => Finset.sum_eq_zero fun w _ => by rw [hM, mul_zero, zero_mul]

end Cert.OneHot

end
-- ==== Proof.Payload.lean ====
import proofs.«405384_j41841571398294_1_alg».proof.Proof.Gen.KernelIdeal.Skeleton
import Idealize.ShloMosaic.Lib.Pipeline.Value
import Idealize.ShloMosaic.Lib.ValueIdx
import Idealize.ShloMosaic.PureOps.Ideal.Laws
import proofs.«405384_j41841571398294_1_alg».proof.Proof.Spec
import proofs.«405384_j41841571398294_1_alg».proof.Proof.OneHot

/-!
  The body's arithmetic read at one element, over the extended reals.

  A grid point holds a [8, 64, 2] block of coordinate words and a [8, 64, 16, 128] tile of heat-map rows.  For entry
  `(p, q)` the body clamps the row word and the column word into [0, 127], compares the clamped row word less 16 times
  the tile number with each row number of the tile and the clamped column word with each column number, turns the two
  comparison bits into the floats 0 and 1, multiplies the tile by both, and sums over columns and then rows.  The sum is
  the tile's element at the clamped (row, column) when that row lies in this tile and 0 otherwise.  The running sum adds
  such partial sums; the last tile turns it into the result word.
-/

noncomputable section

open scoped BigOperators
open Idealize.ShloMosaic Idealize.ShloMosaic.TcCoe Idealize.ShloMosaic.ValueIdx

namespace Cert.KValue

open Cert.KernelIdeal Cert.KernelIdeal.Gen

variable {α : Type}

/-! ### The body's layout operations, read at an index -/

/-- A [8,64,16,1] array spread along the lanes. -/
theorem bc_lane (x : S8x64x16x1.Idx → α) (h : S8x64x16x1.Broadcasts S8x64x16x128) (p : Fin 8) (q : Fin 64) (r : Fin 16) (w : Fin 128) :
    broadcastTo S8x64x16x128 x h (ix4 p q r w) = x (ix4 p q r 0) :=
  broadcastTo_apply x h _ _ fun a => by
    match a with
    | ⟨0, _⟩ => rfl
    | ⟨1, _⟩ => rfl
    | ⟨2, _⟩ => rfl
    | ⟨3, _⟩ => rfl

/-- A [8,64,1,128] array spread along the rows. -/
theorem bc_row (x : S8x64x1x128.Idx → α) (h : S8x64x1x128.Broadcasts S8x64x16x128) (p : Fin 8) (q : Fin 64) (r : Fin 16) (w : Fin 128) :
    broadcastTo S8x64x16x128 x h (ix4 p q r w) = x (ix4 p q 0 w) :=
  broadcastTo_apply x h _ _ fun a => by
    match a with
    | ⟨0, _⟩ => rfl
    | ⟨1, _⟩ => rfl
    | ⟨2, _⟩ => rfl
    | ⟨3, _⟩ => rfl

/-- A [8,64,1,1] array spread along the rows. -/
theorem bc_pt_rows (x : S8x64x1x1.Idx → α) (h : S8x64x1x1.Broadcasts S8x64x16x1) (p : Fin 8) (q : Fin 64) (r : Fin 16) (z : Fin 1) :
    broadcastTo S8x64x16x1 x h (ix4 p q r z) = x (ix4 p q 0 0) :=
  broadcastTo_apply x h _ _ fun a => by
    match a with
    | ⟨0, _⟩ => rfl
    | ⟨1, _⟩ => rfl
    | ⟨2, _⟩ => rfl
    | ⟨3, _⟩ => rfl

/-- The row numbers spread over the batch and keypoint axes. -/
theorem bc_iota_rows (x : S1x1x16x1.Idx → α) (h : S1x1x16x1.Broadcasts S8x64x16x1) (p : Fin 8) (q : Fin 64) (r : Fin 16) (z : Fin 1) :
    broadcastTo S8x64x16x1 x h (ix4 p q r z) = x (ix4 0 0 r 0) :=
  broadcastTo_apply x h _ _ fun a => by
    match a with
    | ⟨0, _⟩ => rfl
    | ⟨1, _⟩ => rfl
    | ⟨2, _⟩ => rfl
    | ⟨3, _⟩ => rfl

/-- A [8,64,1,1] array spread along the lanes. -/
theorem bc_pt_cols (x : S8x64x1x1.Idx → α) (h : S8x64x1x1.Broadcasts S8x64x1x128) (p : Fin 8) (q : Fin 64) (z : Fin 1) (w : Fin 128) :
    broadcastTo S8x64x1x128 x h (ix4 p q z w) = x (ix4 p q 0 0) :=
  broadcastTo_apply x h _ _ fun a => by
    match a with
    | ⟨0, _⟩ => rfl
    | ⟨1, _⟩ => rfl
    | ⟨2, _⟩ => rfl
    | ⟨3, _⟩ => rfl

/-- The column numbers spread over the batch and keypoint axes. -/
theorem bc_iota_cols (x : S1x1x1x128.Idx → α) (h : S1x1x1x128.Broadcasts S8x64x1x128) (p : Fin 8) (q : Fin 64) (z : Fin 1) (w : Fin 128) :
    broadcastTo S8x64x1x128 x h (ix4 p q z w) = x (ix4 0 0 0 w) :=
  broadcastTo_apply x h _ _ fun a => by
    match a with
    | ⟨0, _⟩ => rfl
    | ⟨1, _⟩ => rfl
    | ⟨2, _⟩ => rfl
    | ⟨3, _⟩ => rfl

/-- A [8,64] array viewed as [8,64,1,1] keeps its two coordinates. -/
theorem cast_pt (x : S8x64.Idx → α) (h : S8x64.ShapeCasts S8x64x1x1) (p : Fin 8) (q : Fin 64) (z z' : Fin 1) :
    shapeCast S8x64x1x1 x h (ix4 p q z z') = x (ix2 p q) :=
  shapeCast_apply x h _ _ (by
    rw [Shape.rowMajor_val_two, Shape.rowMajor_val_four]
    have := z.isLt; have := z'.isLt
    show p.val * 64 + q.val = ((p.val * 64 + q.val) * 1 + z.val) * 1 + z'.val
    omega)

/-- The row-number and column-number vectors read their own coordinate. -/
theorem iota_rows_apply (h : S1x1x16x1.Iotas .tc 32 [2]) (a b : Fin 1) (r : Fin 16) (z : Fin 1) :
    iota .tc S1x1x16x1 32 [2] h (ix4 a b r z) = BitVec.ofNat 32 r.val :=
  iota_single_apply .tc S1x1x16x1 32 2 h _

theorem iota_cols_apply (h : S1x1x1x128.Iotas .tc 32 [3]) (a b c : Fin 1) (w : Fin 128) :
    iota .tc S1x1x1x128 32 [3] h (ix4 a b c w) = BitVec.ofNat 32 w.val :=
  iota_single_apply .tc S1x1x1x128 32 3 h _

/-- The column plane of the coordinates block. -/
theorem pay4_apply {F : FTy → Type} [FloatOps F] (x0 : Vec F S8x64x2 .i32) (p : Fin 8) (q : Fin 64) :
    k0_pay4 x0 (ix2 p q) = x0 (ix3 p q 0) := by
  unfold k0_pay4
  refine (shapeCast_apply _ _ (ix2 p q) (ix3 p q 0) (by
    rw [Shape.rowMajor_val_two, Shape.rowMajor_val_three]
    show (p.val * 64 + q.val) * 1 + 0 = p.val * 64 + q.val
    omega)).trans ?_
  exact extractStridedSlice_apply _ x0 _ _ (ix3 p q 0) fun a => by
    match a with
    | ⟨0, _⟩ => exact (Nat.zero_add _).symm
    | ⟨1, _⟩ => exact (Nat.zero_add _).symm
    | ⟨2, _⟩ => rfl

/-- The row plane of the coordinates block. -/
theorem pay5_apply {F : FTy → Type} [FloatOps F] (x0 : Vec F S8x64x2 .i32) (p : Fin 8) (q : Fin 64) :
    k0_pay5 x0 (ix2 p q) = x0 (ix3 p q 1) := by
  unfold k0_pay5
  refine (shapeCast_apply _ _ (ix2 p q) (ix3 p q 0) (by
    rw [Shape.rowMajor_val_two, Shape.rowMajor_val_three]
    show (p.val * 64 + q.val) * 1 + 0 = p.val * 64 + q.val
    omega)).trans ?_
  exact extractStridedSlice_apply _ x0 _ _ (ix3 p q 1) fun a => by
    match a with
    | ⟨0, _⟩ => exact (Nat.zero_add _).symm
    | ⟨1, _⟩ => exact (Nat.zero_add _).symm
    | ⟨2, _⟩ => rfl

/-- The index a reduction sums over, by coordinates: row `r` over `(p, q)`, column `w` over `(p, q, r)`. -/
theorem lift2 (h : S8x64x16.Reduces [2] S8x64) (p : Fin 8) (q : Fin 64) (r : Fin 16) : h.lift (ix2 p q) r = ix3 p q r := by
  funext c
  match c with
  | ⟨0, _⟩ => rfl
  | ⟨1, _⟩ => rfl
  | ⟨2, _⟩ => rfl

theorem lift3 (h : S8x64x16x128.Reduces [3] S8x64x16) (p : Fin 8) (q : Fin 64) (r : Fin 16) (w : Fin 128) :
    h.lift (ix3 p q r) w = ix4 p q r w := by
  funext c
  match c with
  | ⟨0, _⟩ => rfl
  | ⟨1, _⟩ => rfl
  | ⟨2, _⟩ => rfl
  | ⟨3, _⟩ => rfl

/-- The row mask of the body: 1 where the clamped row word, less 16 times the tile number, is the row number. -/
def rowMask (i : grid0.Coords) (x0 : Vec Ideal S8x64x2 .i32) : FVec Ideal S8x64x16x1 .f32 :=
  sitofp .f32 (extui 32 (cmpi .eq
    (broadcastTo S8x64x16x1 (shapeCast S8x64x1x1 (subi (minsi (broadcast S8x64 127#32) (maxsi (broadcast S8x64 0#32) (k0_pay5 x0)))
      (broadcast S8x64 (Scalar.muli (BitVec.ofNat 32 (i 1).val) 16#32))) shapeCasts_S8x64_S8x64x1x1) broadcasts_S8x64x1x1_S8x64x16x1)
    (broadcastTo S8x64x16x1 (iota .tc S1x1x16x1 32 [2] iota_S1x1x16x1_d2_w32) broadcasts_S1x1x16x1_S8x64x16x1)) natLt_1_32)

/-- The column mask of the body: 1 where the clamped column word is the column number. -/
def colMask (x0 : Vec Ideal S8x64x2 .i32) : FVec Ideal S8x64x1x128 .f32 :=
  sitofp .f32 (extui 32 (cmpi .eq
    (broadcastTo S8x64x1x128 (shapeCast S8x64x1x1 (minsi (broadcast S8x64 127#32) (maxsi (broadcast S8x64 0#32) (k0_pay4 x0)))
      shapeCasts_S8x64_S8x64x1x1) broadcasts_S8x64x1x1_S8x64x1x128)
    (broadcastTo S8x64x1x128 (iota .tc S1x1x1x128 32 [3] iota_S1x1x1x128_d3_w32) broadcasts_S1x1x1x128_S8x64x1x128)) natLt_1_32)

/-- The tile's partial sum is the tile times both masks, summed over the columns, then over the rows. -/
theorem pay6_eq (i : grid0.Coords) (x0 : Vec Ideal S8x64x2 .i32) (x1 : Vec Ideal S8x64x16x128 .f32) :
    k0_pay6 (F := Ideal) i x0 x1
      = multiReduction .add [2] S8x64 (multiReduction .add [3] S8x64x16
          (mulf (mulf x1 (broadcastTo S8x64x16x128 (rowMask i x0) broadcasts_S8x64x16x1_S8x64x16x128))
            (broadcastTo S8x64x16x128 (colMask x0) broadcasts_S8x64x1x128_S8x64x16x128))
          0x00000000#32 reduces_S8x64x16x128_S8x64x16 (.inl rfl) rfl) 0x00000000#32 reduces_S8x64x16_S8x64 (.inl rfl) rfl := rfl

/-- The row mask at a row, in words. -/
theorem rowMask_apply (i : grid0.Coords) (x0 : Vec Ideal S8x64x2 .i32) (p : Fin 8) (q : Fin 64) (r : Fin 16) (z : Fin 1) :
    rowMask i x0 (ix4 p q r z)
      = FloatOps.sitofp (F := Ideal) .f32 ((IntOp.cmpi .eq (IntOp.subi (Spec.clip (x0 (ix3 p q 1)))
          (IntOp.muli (BitVec.ofNat 32 (i 1).val) 16#32)) (BitVec.ofNat 32 r.val)).setWidth 32) := by
  unfold rowMask
  show FloatOps.sitofp (F := Ideal) .f32 ((IntOp.cmpi .eq (broadcastTo S8x64x16x1 _ _ (ix4 p q r z))
    (broadcastTo S8x64x16x1 _ _ (ix4 p q r z))).setWidth 32) = _
  rw [bc_pt_rows, bc_iota_rows, cast_pt, iota_rows_apply]
  show FloatOps.sitofp (F := Ideal) .f32 ((IntOp.cmpi .eq (IntOp.subi (IntOp.minsi 127#32 (IntOp.maxsi 0#32 (k0_pay5 x0 (ix2 p q)))) _) _).setWidth 32) = _
  rw [pay5_apply]
  rfl

/-- The column mask at a column, in words. -/
theorem colMask_apply (x0 : Vec Ideal S8x64x2 .i32) (p : Fin 8) (q : Fin 64) (z : Fin 1) (w : Fin 128) :
    colMask x0 (ix4 p q z w)
      = FloatOps.sitofp (F := Ideal) .f32 ((IntOp.cmpi .eq (Spec.clip (x0 (ix3 p q 0))) (BitVec.ofNat 32 w.val)).setWidth 32) := by
  unfold colMask
  show FloatOps.sitofp (F := Ideal) .f32 ((IntOp.cmpi .eq (broadcastTo S8x64x1x128 _ _ (ix4 p q z w))
    (broadcastTo S8x64x1x128 _ _ (ix4 p q z w))).setWidth 32) = _
  rw [bc_pt_cols, bc_iota_cols, cast_pt, iota_cols_apply]
  show FloatOps.sitofp (F := Ideal) .f32 ((IntOp.cmpi .eq (IntOp.minsi 127#32 (IntOp.maxsi 0#32 (k0_pay4 x0 (ix2 p q)))) _).setWidth 32) = _
  rw [pay4_apply]
  rfl

/-- THE TILE'S PARTIAL SUM at `(p, q)`: the tile's element at the clamped (row, column) when the clamped row lies in this
    tile, else 0. -/
theorem pay6_apply (i : grid0.Coords) (t : Nat) (ht : (i 1).val = t) (ht8 : t < 8) (x0 : Vec Ideal S8x64x2 .i32)
    (x1 : Vec Ideal S8x64x16x128 .f32) (p : Fin 8) (q : Fin 64) :
    k0_pay6 (F := Ideal) i x0 x1 (ix2 p q)
      = if (Spec.clip (x0 (ix3 p q 1))).toNat / 16 = t then
          x1 (ix4 p q ⟨(Spec.clip (x0 (ix3 p q 1))).toNat % 16, Nat.mod_lt _ (by decide)⟩
            ⟨(Spec.clip (x0 (ix3 p q 0))).toNat, Spec.clip_lt _⟩)
        else 0 := by
  rw [pay6_eq]
  refine (Ideal.multiReduction_add_single _ 0x00000000#32 reduces_S8x64x16_S8x64 (.inl rfl) rfl (ix2 p q)).trans ?_
  have hv : (Spec.clip (x0 (ix3 p q 1))).toNat < 128 := Spec.clip_lt _
  have hu : (Spec.clip (x0 (ix3 p q 0))).toNat < 128 := Spec.clip_lt _
  -- each row's inner sum, term by term
  have inner : ∀ r : Fin 16,
      multiReduction .add [3] S8x64x16
          (mulf (mulf x1 (broadcastTo S8x64x16x128 (rowMask i x0) broadcasts_S8x64x16x1_S8x64x16x128))
            (broadcastTo S8x64x16x128 (colMask x0) broadcasts_S8x64x1x128_S8x64x16x128))
          0x00000000#32 reduces_S8x64x16x128_S8x64x16 (.inl rfl) rfl (ix3 p q r)
        = ∑ w : Fin 128, x1 (ix4 p q r w) * rowMask i x0 (ix4 p q r 0) * colMask x0 (ix4 p q 0 w) := by
    intro r
    refine (Ideal.multiReduction_add_single _ 0x00000000#32 reduces_S8x64x16x128_S8x64x16 (.inl rfl) rfl (ix3 p q r)).trans ?_
    refine Finset.sum_congr rfl fun (w : Fin 128) _ => ?_
    rw [lift3, mulf_apply, mulf_apply, bc_lane, bc_row]
  refine (Finset.sum_congr rfl (fun (r : Fin 16) _ => by rw [lift2]; exact inner r) :
    _ = ∑ r : Fin 16, ∑ w : Fin 128, x1 (ix4 p q r w) * rowMask i x0 (ix4 p q r 0) * colMask x0 (ix4 p q 0 w)).trans ?_
  by_cases h : (Spec.clip (x0 (ix3 p q 1))).toNat / 16 = t
  · rw [if_pos h]
    refine OneHot.sum_pick (fun r w => x1 (ix4 p q r w)) (fun r => rowMask i x0 (ix4 p q r 0))
      (fun w => colMask x0 (ix4 p q 0 w)) ⟨(Spec.clip (x0 (ix3 p q 1))).toNat % 16, Nat.mod_lt _ (by decide)⟩
      ⟨(Spec.clip (x0 (ix3 p q 0))).toNat, Spec.clip_lt _⟩ (fun r => ?_) (fun w => ?_)
    · show rowMask i x0 (ix4 p q r 0) = _
      rw [rowMask_apply, OneHot.sitofp_bit, ht]
      refine if_congr ?_ rfl rfl
      rw [OneHot.row_test _ hv t ht8 r.val r.isLt]
      constructor
      · intro e; apply Fin.ext; show r.val = (Spec.clip (x0 (ix3 p q 1))).toNat % 16; omega
      · intro e
        have e' : r.val = (Spec.clip (x0 (ix3 p q 1))).toNat % 16 := congrArg Fin.val e
        omega
    · show colMask x0 (ix4 p q 0 w) = _
      rw [colMask_apply, OneHot.sitofp_bit]
      refine if_congr ?_ rfl rfl
      rw [OneHot.col_test _ hu w.val w.isLt]
      constructor
      · intro e; apply Fin.ext; exact e.symm
      · intro e; exact (congrArg Fin.val e).symm
  · rw [if_neg h]
    refine OneHot.sum_none (fun r w => x1 (ix4 p q r w)) (fun r => rowMask i x0 (ix4 p q r 0))
      (fun w => colMask x0 (ix4 p q 0 w)) (fun r => ?_)
    show rowMask i x0 (ix4 p q r 0) = 0
    rw [rowMask_apply, OneHot.sitofp_bit, ht, if_neg]
    intro hc
    rw [OneHot.row_test _ hv t ht8 r.val r.isLt] at hc
    have := r.isLt
    omega

/-- Adding a tile's partial sum to the running sum, element by element. -/
theorem pay1_apply (a b : Vec Ideal S8x64 .f32) (j : S8x64.Idx) : k0_pay1 (F := Ideal) a b j = b j + a j := by
  unfold k0_pay1
  rw [shapeCast_self]
  rfl

/-- The reset block is zero everywhere. -/
theorem pay3_apply (j : S8x64.Idx) : k0_pay3 (F := Ideal) j = 0 := by
  unfold k0_pay3
  rw [shapeCast_self]
  exact Ideal.ofBits_zero_f32

/-- The result word at `(p, q)`: the four range tests of the two words joined in order, joined with the threshold test of the
    sum, widened to 32 bits. -/
theorem pay2_apply (v5 v7 : IVec S8x64 32) (acc : Vec Ideal S8x64 .f32) (j : S8x64.Idx) :
    k0_pay2 (F := Ideal) v5 v7 acc j
      = (IntOp.andi (IntOp.andi (IntOp.andi (IntOp.andi (IntOp.cmpi .sgt (v7 j) 4294967295#32) (IntOp.cmpi .sgt (v5 j) 4294967295#32))
          (IntOp.cmpi .slt (v7 j) 128#32)) (IntOp.cmpi .slt (v5 j) 128#32))
          (FloatOps.cmpf (F := Ideal) .ogt (acc j) (Ideal.ofBits .f32 0x3ECCCCCD#32))).setWidth 32 := rfl

end Cert.KValue
end
-- ==== Proof.Accum.lean ====
import proofs.«405384_j41841571398294_1_alg».proof.Proof.Gen.KernelIdeal.Frame
import proofs.«405384_j41841571398294_1_alg».proof.Proof.Pieces
import proofs.«405384_j41841571398294_1_alg».proof.Proof.Payload
import proofs.«405384_j41841571398294_1_alg».proof.Proof.Spec
import Idealize.ShloMosaic.Lib.Pipeline.Value
import Idealize.ShloMosaic.Lib.ValueIdx

/-!
  The running sum over the grid, in closed form.

  The grid is 16 batch blocks by 8 row tiles, a batch block's tiles visited in order.  The block of coordinate words and
  the tile of heat-map rows a point is handed are the whole arrays read at (8 · block + p, q, ·) and
  (8 · block + p, q, 16 · tile + r, w).  By induction on the point, after tile `hi` of a batch block the scratch holds,
  for entry `(p, q)`, the heat map at the clamped (row, column) if the clamped row lies in a tile up to `hi`, and 0
  otherwise: a tile adds the picked value exactly when the clamped row is one of its own rows, and adds 0 otherwise.
-/

noncomputable section

open Idealize.ShloMosaic Idealize.ShloMosaic.TcCoe Idealize.SL.Sem Idealize.ShloMosaic.ValueIdx
open Idealize.ShloMosaic.Pipeline (Dat)

namespace Cert.KValue

open Cert.KernelIdeal Cert.KernelIdeal.Gen

variable (m : (ℓ : Loc nD τ sig) → Buf (Elt Ideal) ℓ)

/-- The two argument arrays as the region finds them, and the blocks of them a grid point is handed. -/
abbrev co (c : Dev nD) : Vec Ideal S128x64x2 .i32 := V m c main_arg0
abbrev hm (c : Dev nD) : Vec Ideal S128x64x128x128 .f32 := V m c main_arg1
abbrev cblk (c : Dev nD) (t : Fin cfg0.N) : Vec Ideal S8x64x2 .i32 := iblk m c 0 t
abbrev hblk (c : Dev nD) (t : Fin cfg0.N) : Vec Ideal S8x64x16x128 .f32 := iblk m c 1 t

/-- Point `t` of the 16 × 8 grid is batch block `t / 8`, row tile `t % 8`; the three index maps follow it. -/
theorem grid_facts : ∀ t : Fin cfg0.N, ((grid0.coords t) 1).val = t.val % 8
    ∧ win0_0.index t (0 : Fin 3) = t.val / 8 ∧ win0_0.index t (1 : Fin 3) = 0 ∧ win0_0.index t (2 : Fin 3) = 0
    ∧ win0_1.index t (0 : Fin 4) = t.val / 8 ∧ win0_1.index t (1 : Fin 4) = 0 ∧ win0_1.index t (2 : Fin 4) = t.val % 8
    ∧ win0_1.index t (3 : Fin 4) = 0
    ∧ win0_2.index t (0 : Fin 2) = t.val / 8 ∧ win0_2.index t (1 : Fin 2) = 0 :=
  (by decide +kernel : ∀ t : Fin grid0.N, _)

/-- Batch entry `p` of batch block `bi`, and row `r` of row tile `hi`, as coordinates of the whole arrays. -/
def bRow (bi : Nat) (p : Fin 8) : Fin 128 := ⟨(8 * bi + p.val) % 128, Nat.mod_lt _ (by decide)⟩
def tRow (hi : Nat) (r : Fin 16) : Fin 128 := ⟨(16 * hi + r.val) % 128, Nat.mod_lt _ (by decide)⟩

theorem cblk_apply (c : Dev nD) (t : Fin cfg0.N) (p : Fin 8) (q : Fin 64) (j : Fin 2) :
    cblk m c t (ix3 p q j) = co m c (ix3 (bRow (t.val / 8) p) q j) := by
  obtain ⟨-, e0, e1, e2, -⟩ := grid_facts t
  have hN : t.val < 128 := lt_of_lt_of_eq t.isLt (show cfg0.N = 128 from N_0)
  show iblk m c 0 t (ix3 p q j) = _
  unfold iblk
  rw [View.read_apply]
  show V m c main_arg0 _ = V m c main_arg0 _
  congr 1
  funext a
  apply Fin.ext
  match a with
  | ⟨0, _⟩ => show win0_0.index t (0 : Fin 3) * 8 + 1 * p.val = (8 * (t.val / 8) + p.val) % 128; rw [e0]; omega
  | ⟨1, _⟩ => show win0_0.index t (1 : Fin 3) * 64 + 1 * q.val = q.val; rw [e1]; omega
  | ⟨2, _⟩ => show win0_0.index t (2 : Fin 3) * 2 + 1 * j.val = j.val; rw [e2]; omega

theorem hblk_apply (c : Dev nD) (t : Fin cfg0.N) (p : Fin 8) (q : Fin 64) (r : Fin 16) (w : Fin 128) :
    hblk m c t (ix4 p q r w) = hm m c (ix4 (bRow (t.val / 8) p) q (tRow (t.val % 8) r) w) := by
  obtain ⟨-, -, -, -, e0, e1, e2, e3, -⟩ := grid_facts t
  have hN : t.val < 128 := lt_of_lt_of_eq t.isLt (show cfg0.N = 128 from N_0)
  show iblk m c 1 t (ix4 p q r w) = _
  unfold iblk
  rw [View.read_apply]
  show V m c main_arg1 _ = V m c main_arg1 _
  congr 1
  funext a
  apply Fin.ext
  match a with
  | ⟨0, _⟩ => show win0_1.index t (0 : Fin 4) * 8 + 1 * p.val = (8 * (t.val / 8) + p.val) % 128; rw [e0]; omega
  | ⟨1, _⟩ => show win0_1.index t (1 : Fin 4) * 64 + 1 * q.val = q.val; rw [e1]; omega
  | ⟨2, _⟩ => show win0_1.index t (2 : Fin 4) * 16 + 1 * r.val = (16 * (t.val % 8) + r.val) % 128; rw [e2]; omega
  | ⟨3, _⟩ => show win0_1.index t (3 : Fin 4) * 128 + 1 * w.val = w.val; rw [e3]; omega

/-- The clamped row and column of entry `(p, q)` of batch block `bi`, as naturals, and the heat map read there. -/
def vN (c : Dev nD) (bi : Nat) (p : Fin 8) (q : Fin 64) : Nat := (Spec.clip (co m c (ix3 (bRow bi p) q 1))).toNat
def uN (c : Dev nD) (bi : Nat) (p : Fin 8) (q : Fin 64) : Nat := (Spec.clip (co m c (ix3 (bRow bi p) q 0))).toNat
theorem vN_lt (c : Dev nD) (bi : Nat) (p : Fin 8) (q : Fin 64) : vN m c bi p q < 128 := Spec.clip_lt _
theorem uN_lt (c : Dev nD) (bi : Nat) (p : Fin 8) (q : Fin 64) : uN m c bi p q < 128 := Spec.clip_lt _
def pick (c : Dev nD) (bi : Nat) (p : Fin 8) (q : Fin 64) : EReal :=
  hm m c (ix4 (bRow bi p) q ⟨vN m c bi p q, vN_lt m c bi p q⟩ ⟨uN m c bi p q, uN_lt m c bi p q⟩)

/-- It is the specification's pick. -/
theorem pick_eq (c : Dev nD) (bi : Nat) (p : Fin 8) (q : Fin 64) :
    pick m c bi p q = Spec.picked (co m c) (hm m c) (bRow bi p) q := rfl

/-- THE TILE'S PARTIAL SUM over the whole arrays: the pick when the clamped row lies in tile `t % 8`, else 0. -/
theorem partial_apply (c : Dev nD) (t : Fin cfg0.N) (p : Fin 8) (q : Fin 64) :
    k0_pay6 (F := Ideal) (grid0.coords t) (cblk m c t) (hblk m c t) (ix2 p q)
      = if vN m c (t.val / 8) p q / 16 = t.val % 8 then pick m c (t.val / 8) p q else 0 := by
  obtain ⟨eg, -⟩ := grid_facts t
  rw [pay6_apply (grid0.coords t) (t.val % 8) eg (Nat.mod_lt _ (by decide)) (cblk m c t) (hblk m c t) p q,
    cblk_apply, cblk_apply]
  by_cases h : vN m c (t.val / 8) p q / 16 = t.val % 8
  · have h' : (Spec.clip (co m c (ix3 (bRow (t.val / 8) p) q 1))).toNat / 16 = t.val % 8 := h
    rw [if_pos h', if_pos h, hblk_apply]
    unfold pick
    congr 1
    have hv := vN_lt m c (t.val / 8) p q
    refine congrArg (fun z => ix4 (bRow (t.val / 8) p) q z _) (Fin.ext ?_)
    show (16 * (t.val % 8) + vN m c (t.val / 8) p q % 16) % 128 = vN m c (t.val / 8) p q
    omega
  · have h' : ¬(Spec.clip (co m c (ix3 (bRow (t.val / 8) p) q 1))).toNat / 16 = t.val % 8 := h
    rw [if_neg h', if_neg h]

/-- What the scratch holds after tile `hi` of batch block `bi`: the pick where the clamped row lies in a tile up to
    `hi`, else still 0. -/
def accSpec (c : Dev nD) (bi hi : Nat) : Vec Ideal S8x64 .f32 := fun j =>
  if vN m c bi (j 0) (j 1) / 16 ≤ hi then pick m c bi (j 0) (j 1) else 0

/-- The first tile of a batch block: zeros plus its partial sum. -/
theorem first_tile (c : Dev nD) (t : Fin cfg0.N) (h0 : t.val % 8 = 0) :
    k0_pay1 (F := Ideal) (k0_pay6 (grid0.coords t) (cblk m c t) (hblk m c t)) (k0_pay3 (F := Ideal)) = accSpec m c (t.val / 8) (t.val % 8) := by
  funext j
  obtain ⟨p, q, rfl⟩ : ∃ (p : Fin 8) (q : Fin 64), j = ix2 p q := ⟨j 0, j 1, eq_ix2 j⟩
  rw [pay1_apply, pay3_apply, zero_add, partial_apply]
  show _ = if vN m c (t.val / 8) p q / 16 ≤ t.val % 8 then pick m c (t.val / 8) p q else 0
  rw [h0]
  by_cases h : vN m c (t.val / 8) p q / 16 = 0
  · rw [if_pos h, if_pos (le_of_eq h)]
  · rw [if_neg h, if_neg (by omega)]

/-- A later tile: what the tile before left plus its partial sum. -/
theorem next_tile (c : Dev nD) (t : Fin cfg0.N) (hi : Nat) (hhi : t.val % 8 = hi + 1) :
    k0_pay1 (F := Ideal) (k0_pay6 (grid0.coords t) (cblk m c t) (hblk m c t)) (accSpec m c (t.val / 8) hi)
      = accSpec m c (t.val / 8) (t.val % 8) := by
  funext j
  obtain ⟨p, q, rfl⟩ : ∃ (p : Fin 8) (q : Fin 64), j = ix2 p q := ⟨j 0, j 1, eq_ix2 j⟩
  rw [pay1_apply, partial_apply]
  show (if vN m c (t.val / 8) p q / 16 ≤ hi then pick m c (t.val / 8) p q else 0)
      + (if vN m c (t.val / 8) p q / 16 = t.val % 8 then pick m c (t.val / 8) p q else 0)
    = if vN m c (t.val / 8) p q / 16 ≤ t.val % 8 then pick m c (t.val / 8) p q else 0
  rw [hhi]
  by_cases a : vN m c (t.val / 8) p q / 16 ≤ hi
  · rw [if_pos a, if_neg (by omega), if_pos (by omega), add_zero]
  · by_cases b : vN m c (t.val / 8) p q / 16 = hi + 1
    · rw [if_neg a, if_pos b, if_pos (by omega), zero_add]
    · rw [if_neg a, if_neg b, if_neg (by omega), add_zero]

/-- THE RUNNING SUM after point `n`, by induction on the point: the scratch holds the sum's closed form. -/
theorem acc_eq (c : Dev nD) : ∀ (n : ℕ) (h : n < cfg0.N), (outsAt0 m c n h).2 = accSpec m c (n / 8) (n % 8)
  | 0, h => by
    have h0 : (⟨0, h⟩ : Fin cfg0.N).val % 8 = 0 := rfl
    have h1 : ¬(⟨0, h⟩ : Fin cfg0.N).val % 8 = 7 := by show ¬(0 % 8 = 7); decide
    rw [outsAt0_A m c ⟨0, h⟩ h0 h1]
    dsimp only
    rw [sA]
    exact first_tile m c ⟨0, h⟩ h0
  | n + 1, h => by
    have hN : cfg0.N = 128 := N_0
    by_cases h0 : (n + 1) % 8 = 0
    · have h1 : ¬(⟨n + 1, h⟩ : Fin cfg0.N).val % 8 = 7 := by dsimp only; omega
      rw [outsAt0_A m c ⟨n + 1, h⟩ h0 h1]
      dsimp only
      rw [sA]
      exact first_tile m c ⟨n + 1, h⟩ h0
    · have ih := acc_eq c n (Nat.lt_of_succ_lt h)
      have e8 : (n + 1) / 8 = n / 8 := by omega
      have em : (n + 1) % 8 = n % 8 + 1 := by omega
      by_cases h1 : (n + 1) % 8 = 7
      · rw [outsAt0_C m c ⟨n + 1, h⟩ h0 h1]
        dsimp only
        rw [sC]
        show k0_pay1 (F := Ideal) _ (outsAt0 m c n _).2 = _
        rw [ih, ← e8]
        exact next_tile m c ⟨n + 1, h⟩ (n % 8) em
      · rw [outsAt0_B m c ⟨n + 1, h⟩ h0 h1]
        dsimp only
        rw [sB]
        show k0_pay1 (F := Ideal) _ (outsAt0 m c n _).2 = _
        rw [ih, ← e8]
        exact next_tile m c ⟨n + 1, h⟩ (n % 8) em

end Cert.KValue
end
-- ==== Proof.Final.lean ====
import proofs.«405384_j41841571398294_1_alg».proof.Proof.Gen.KernelIdeal.Frame
import proofs.«405384_j41841571398294_1_alg».proof.Proof.Accum
import Idealize.ShloMosaic.Lib.Pipeline.Value
import Idealize.ShloMosaic.Lib.ValueIdx
import Idealize.ShloMosaic.Lib.StableHlo.Run

/-!
  From the running sum to the kernel's result.

  At a batch block's last tile every clamped row lies in a tile already visited, so the scratch holds the picked value
  itself; the output block gets the result bit of each entry widened to a word, and that point is the only one that
  writes the block back.  The sixteen last tiles cover the [128, 64] array, and the host lines after the region turn each
  word back into its bit by comparing it with zero.
-/

noncomputable section

open Idealize.ShloMosaic Idealize.ShloMosaic.TcCoe Idealize.SL.Sem Idealize.ShloMosaic.ValueIdx
open Idealize.ShloMosaic.Pipeline (Dat)

namespace Cert.KValue

open Cert.KernelIdeal Cert.KernelIdeal.Gen

variable (m : (ℓ : Loc nD τ sig) → Buf (Elt Ideal) ℓ) (ρ : Dev nD → PrngReg)

/-- What the kernel's output array ends holding: the specification's result bit, widened to a 32-bit word. -/
def outG (c : Dev nD) : Vec Ideal S128x64 .i32 := fun i => (Spec.result (co m c) (hm m c) i).setWidth 32

/-- THE OUTPUT BLOCK of a batch block's last tile: the result words of its eight batch entries. -/
theorem out_at (c : Dev nD) (t : Fin cfg0.N) (h7 : t.val % 8 = 7) (p : Fin 8) (q : Fin 64) :
    (outsAt0 m c t.val t.isLt).1 (ix2 p q) = outG m c (ix2 (bRow (t.val / 8) p) q) := by
  have h0 : ¬t.val % 8 = 0 := by omega
  have e := acc_eq m c t.val t.isLt
  rw [outsAt0_C m c t h0 h7] at e
  dsimp only at e
  rw [sC] at e
  rw [outsAt0_C m c t h0 h7]
  dsimp only
  have e1 : iblk m c 0 t (ix3 p q 1) = co m c (ix3 (bRow (t.val / 8) p) q 1) := cblk_apply m c t p q 1
  have e0 : iblk m c 0 t (ix3 p q 0) = co m c (ix3 (bRow (t.val / 8) p) q 0) := cblk_apply m c t p q 0
  have ea : accSpec m c (t.val / 8) (t.val % 8) (ix2 p q) = pick m c (t.val / 8) p q := by
    show (if vN m c (t.val / 8) p q / 16 ≤ t.val % 8 then pick m c (t.val / 8) p q else 0) = _
    have hv := vN_lt m c (t.val / 8) p q
    rw [if_pos (by omega)]
  rw [oC, e, pay2_apply, pay4_apply, pay5_apply, e1, e0, ea, pick_eq]
  rfl

/-- WHAT A LAST TILE WRITES BACK is its batch block of the result words. -/
theorem flushed_eq (c : Dev nD) (t : Fin cfg0.N) (hf : (cfg0.win 2).flush t = true) :
    (dats m 0 c).flushed 2 t = ((cfg0.win 2).blk t).view.read (Elt Ideal) (outG m c) := by
  have h7 : t.val % 8 = 7 := (flush0_2 t).mp hf
  obtain ⟨-, -, -, -, -, -, -, -, e0, e1⟩ := grid_facts t
  have hN : t.val < 128 := lt_of_lt_of_eq t.isLt (show cfg0.N = 128 from N_0)
  show (cfg0.win 2).cut (grid0.coords t) ((dats m 0 c).after 2 t) = _
  rw [after0_2]
  funext j
  obtain ⟨p, q, rfl⟩ : ∃ (p : Fin 8) (q : Fin 64), j = ix2 p q := ⟨j 0, j 1, eq_ix2 j⟩
  rw [View.read_apply]
  refine (out_at m c t h7 p q).trans (congrArg (outG m c) ?_)
  funext a
  apply Fin.ext
  match a with
  | ⟨0, _⟩ => show (8 * (t.val / 8) + p.val) % 128 = win0_2.index t (0 : Fin 2) * 8 + 1 * p.val; rw [e0]; omega
  | ⟨1, _⟩ => show q.val = win0_2.index t (1 : Fin 2) * 64 + 1 * q.val; rw [e1]; omega

/-- An index of the result array lies in the block of point `t` iff each coordinate lies in the block's range. -/
theorem mem_blk (t : Fin cfg0.N) (i : S128x64.Idx) :
    i ∈ ((cfg0.win 2).blk t).view.set ↔ ∀ a : Fin 2, win0_2.index t a * S8x64.size a ≤ (i a).val ∧ (i a).val < win0_2.index t a * S8x64.size a + S8x64.size a := by
  show i ∈ ((View.whole main_v0).slice (win0_2.rect t)).set ↔ _
  rw [View.set_slice_whole, Rect.mem_set_unit]
  exact Iff.rfl

/-- THE RESULT ARRAY after the region: every batch block is written back by its last tile, so the array holds the result
    words everywhere. -/
theorem final (c : Dev nD) : (dats m 0 c).arrAt 2 cfg0.N = outG m c :=
  (dats m 0 c).arrAt_eq_of_cover 2 (outG m c) (flushed_eq m c) fun i => by
    have hi0 : (i 0).val < 128 := (i 0).isLt
    have hi1 : (i 1).val < 64 := (i 1).isLt
    have hN : cfg0.N = 128 := N_0
    let t : Fin cfg0.N := ⟨8 * ((i 0).val / 8) + 7, by omega⟩
    have ht : t.val = 8 * ((i 0).val / 8) + 7 := rfl
    obtain ⟨-, -, -, -, -, -, -, -, e0, e1⟩ := grid_facts t
    refine ⟨t, (flush0_2 t).mpr (by omega), ?_⟩
    rw [mem_blk]
    intro a
    match a with
    | ⟨0, _⟩ => show win0_2.index t (0 : Fin 2) * 8 ≤ (i 0).val ∧ (i 0).val < win0_2.index t (0 : Fin 2) * 8 + 8; rw [e0]; omega
    | ⟨1, _⟩ => show win0_2.index t (1 : Fin 2) * 64 ≤ (i 1).val ∧ (i 1).val < win0_2.index t (1 : Fin 2) * 64 + 64; rw [e1]; omega

/-- A one-bit word widened to 32 bits is non-zero exactly when the bit is set. -/
theorem ne_zero_bit (b : BitVec 1) : IntOp.cmpi .ne (b.setWidth 32) 0#32 = b := by
  revert b; decide

/-- THE HOST LINES AFTER THE REGION compare the result words with zero: the result bits themselves. -/
theorem tail_eq (c : Dev nD) :
    Pipeline.afterTail₀ cfgs (dats m) 0 (V0 m) [hostOps1] c main_v3 = Spec.result (co m c) (hm m c) := by
  unfold Pipeline.afterTail₀
  show StableHlo.after hostOps1 _ (Proc.devRef .tc main_v3) = _
  after_results
  have hw : Pipeline.withArrays (cfgs 0).spec c (V0 m c) (fun w => (dats m 0 c).arrAt w (cfgs 0).N) (Proc.devRef .tc main_v0)
      = outG m c := (Pipeline.withArrays_arr spec0 launch0.win.arr_inj c _ _ 2).trans (final m c)
  rw [hw]
  funext i
  show IntOp.cmpi .ne ((Spec.result (co m c) (hm m c) i).setWidth 32) 0#32 = _
  exact ne_zero_bit _

/-- The result buffer is no array of the region and is not scoped: the region passes it by. -/
theorem v3_rest : main_v3 ∈ Pipeline.restRefs sig spec0 :=
  Pipeline.mem_restRefs_of main_v3 rfl (fun w => by fin_cases w <;> decide)

/-- THE KERNEL'S RUN, READ: every weakly fair execution ends with the result buffer at the specification's result of the
    two argument arrays, and the arguments unchanged. -/
theorem run : θ_run defs (onTc (τ := τ) (main (F := Ideal))) ⟨m, fun _ => 0, ρ⟩ fun r => ∀ c : Dev nD,
      r.2.mem ((c.tc : Thread nD τ).loc main_v3)
        = Spec.result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v3 v3_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KValue
end
-- ==== Proof.LibGather4.lean ====
import Idealize.ShloMosaic.Lib.ValueIdx
import Idealize.ShloMosaic.PureOps.ShapeOps
import Idealize.ShloMosaic.PureOps.Dims
import Idealize.ShloMosaic.PureOps.Contract

/-!
  A `stablehlo.gather` of SINGLE ELEMENTS of a rank-4 table, read at a result index.

  The table has shape `[A, B, C, D]`; all four of its axes are collapsed and all four are named, in order, by the start
  index map. The start indices are an `[R, S, 4]` array: one quadruple of words per result element, the quadruple lying
  along the last axis. There are no offset axes and no batching axes, so the result has shape `[R, S]`.

  Result element `(r, s)` is the table at the four words of quadruple `(r, s)`, each word read as a signed integer and
  clamped into its own axis: word `z` on an axis of extent `n` becomes `min z.toInt.toNat (n - 1)` (a negative word
  goes to `0`, a word past the end to `n - 1`).
-/

namespace Cert.LibGather4

open Idealize.ShloMosaic Idealize.ShloMosaic.ValueIdx

/-- A word read signed and clamped into an axis of extent `n`. -/
def clampTo {w : Nat} (n : Nat) (hn : 0 < n) (z : BitVec w) : Fin n := ⟨min z.toInt.toNat (n - 1), by omega⟩

theorem clampTo_val {w : Nat} (n : Nat) (hn : 0 < n) (z : BitVec w) : (clampTo n hn z).val = min z.toInt.toNat (n - 1) := rfl

/-- A word whose signed value is a natural number already below the extent is left alone by the clamp. -/
theorem clampTo_of_lt {w : Nat} (n : Nat) (hn : 0 < n) (z : BitVec w) (m : Nat) (hz : z.toInt = (m : Int)) (hm : m < n) :
    clampTo n hn z = ⟨m, hm⟩ := by
  refine Fin.ext ?_
  show min z.toInt.toNat (n - 1) = m
  rw [hz, Int.toNat_natCast]
  omega

/-- The start index component that result index `(r, s)` reads for the `c`-th entry of the start index map sits at
    `(r, s, c)`: the two batch coordinates, then `c` along the quadruple's axis. -/
private theorem quad_at {R S : Nat} (r : Fin R) (s : Fin S) (c : Fin 4) (v : (⟨3, ![R, S, 4]⟩ : Shape).Idx)
    (h0 : (v 0).val = r.val) (h1 : (v 1).val = s.val) (h2 : (v 2).val = c.val) : v = ix3 r s c := by
  funext q
  refine Fin.ext ?_
  match q with
  | ⟨0, _⟩ => exact h0
  | ⟨1, _⟩ => exact h1
  | ⟨2, _⟩ => exact h2

/-- The gather of single elements of a rank-4 table: result element `(r, s)` is the table at the four start words of
    quadruple `(r, s)`, each clamped into its axis. -/
theorem gather_point4 {α : Type} {A B C D R S w : Nat}
    (d : GatherDims ⟨4, ![A, B, C, D]⟩ ⟨3, ![R, S, 4]⟩ ⟨2, ![R, S]⟩)
    (hod : d.offsetDims = []) (hcoll : d.collapsedSliceDims = [0, 1, 2, 3]) (hob : d.operandBatchingDims = [])
    (hsim : d.startIndexMap = [0, 1, 2, 3]) (hivd : d.indexVectorDim = 2)
    (hA : 0 < A) (hB : 0 < B) (hC : 0 < C) (hD : 0 < D)
    (x : (⟨4, ![A, B, C, D]⟩ : Shape).Idx → α) (idx : IVec ⟨3, ![R, S, 4]⟩ w) (r : Fin R) (s : Fin S) :
    Host.gather d x idx (ix2 r s) =
      x (ix4 (clampTo A hA (idx (ix3 r s 0))) (clampTo B hB (idx (ix3 r s 1)))
        (clampTo C hC (idx (ix3 r s 2))) (clampTo D hD (idx (ix3 r s 3)))) := by
  have m0 : (0 : Fin 4) ∈ ([0, 1, 2, 3] : List (Fin 4)) := List.mem_cons_self
  have m1 : (1 : Fin 4) ∈ ([0, 1, 2, 3] : List (Fin 4)) := List.mem_cons_of_mem _ List.mem_cons_self
  have m2 : (2 : Fin 4) ∈ ([0, 1, 2, 3] : List (Fin 4)) :=
    List.mem_cons_of_mem _ (List.mem_cons_of_mem _ List.mem_cons_self)
  have m3 : (3 : Fin 4) ∈ ([0, 1, 2, 3] : List (Fin 4)) :=
    List.mem_cons_of_mem _ (List.mem_cons_of_mem _ (List.mem_cons_of_mem _ (List.mem_singleton.mpr rfl)))
  have hsl0 : d.sliceSizes 0 = 1 := d.slice_collapsed 0 (by rw [hcoll]; exact m0)
  have hsl1 : d.sliceSizes 1 = 1 := d.slice_collapsed 1 (by rw [hcoll]; exact m1)
  have hsl2 : d.sliceSizes 2 = 1 := d.slice_collapsed 2 (by rw [hcoll]; exact m2)
  have hsl3 : d.sliceSizes 3 = 1 := d.slice_collapsed 3 (by rw [hcoll]; exact m3)
  obtain ⟨od, cd, ob, sb, sm, iv, ss, wf⟩ := d
  dsimp only at hod hcoll hob hsim hivd hsl0 hsl1 hsl2 hsl3
  subst hod hcoll hob hsim hivd
  unfold Host.gather
  congr 1
  funext a
  refine Fin.ext ?_
  match a with
  | ⟨0, _⟩ =>
    -- the first axis: collapsed and start-indexed, so the coordinate is the clamped first word alone
    show GatherDims.start _ _ idx 0 + GatherDims.batchCoord _ _ 0 + GatherDims.offCoord _ _ 0 = _
    rw [GatherDims.batchCoord_eq_zero _ _ _ List.not_mem_nil,
      GatherDims.offCoord_eq_zero _ _ _ (fun h => ((GatherDims.mem_sKept _ _).mp h).1 m0)]
    unfold GatherDims.start
    rw [dif_pos m0]
    show min (idx _).toInt.toNat (A - ss 0) = min (idx (ix3 r s 0)).toInt.toNat (A - 1)
    rw [hsl0]
    refine congrArg (fun v => min (idx v).toInt.toNat (A - 1)) ?_
    exact quad_at r s 0 _ rfl rfl rfl
  | ⟨1, _⟩ =>
    -- the second axis, by its own word
    show GatherDims.start _ _ idx 1 + GatherDims.batchCoord _ _ 1 + GatherDims.offCoord _ _ 1 = _
    rw [GatherDims.batchCoord_eq_zero _ _ _ List.not_mem_nil,
      GatherDims.offCoord_eq_zero _ _ _ (fun h => ((GatherDims.mem_sKept _ _).mp h).1 m1)]
    unfold GatherDims.start
    rw [dif_pos m1]
    show min (idx _).toInt.toNat (B - ss 1) = min (idx (ix3 r s 1)).toInt.toNat (B - 1)
    rw [hsl1]
    refine congrArg (fun v => min (idx v).toInt.toNat (B - 1)) ?_
    exact quad_at r s 1 _ rfl rfl rfl
  | ⟨2, _⟩ =>
    -- the third axis
    show GatherDims.start _ _ idx 2 + GatherDims.batchCoord _ _ 2 + GatherDims.offCoord _ _ 2 = _
    rw [GatherDims.batchCoord_eq_zero _ _ _ List.not_mem_nil,
      GatherDims.offCoord_eq_zero _ _ _ (fun h => ((GatherDims.mem_sKept _ _).mp h).1 m2)]
    unfold GatherDims.start
    rw [dif_pos m2]
    show min (idx _).toInt.toNat (C - ss 2) = min (idx (ix3 r s 2)).toInt.toNat (C - 1)
    rw [hsl2]
    refine congrArg (fun v => min (idx v).toInt.toNat (C - 1)) ?_
    exact quad_at r s 2 _ rfl rfl rfl
  | ⟨3, _⟩ =>
    -- the fourth axis
    show GatherDims.start _ _ idx 3 + GatherDims.batchCoord _ _ 3 + GatherDims.offCoord _ _ 3 = _
    rw [GatherDims.batchCoord_eq_zero _ _ _ List.not_mem_nil,
      GatherDims.offCoord_eq_zero _ _ _ (fun h => ((GatherDims.mem_sKept _ _).mp h).1 m3)]
    unfold GatherDims.start
    rw [dif_pos m3]
    show min (idx _).toInt.toNat (D - ss 3) = min (idx (ix3 r s 3)).toInt.toNat (D - 1)
    rw [hsl3]
    refine congrArg (fun v => min (idx v).toInt.toNat (D - 1)) ?_
    exact quad_at r s 3 _ rfl rfl rfl

end Cert.LibGather4
-- ==== Proof.RefValue.lean ====
import proofs.«405384_j41841571398294_1_alg».proof.Proof.Gen.ReferenceIdeal.Read
import proofs.«405384_j41841571398294_1_alg».proof.Proof.Spec
import proofs.«405384_j41841571398294_1_alg».proof.Proof.LibGather4
import Idealize.ShloMosaic.Lib.ValueIdx
import Idealize.ShloMosaic.Lib.Pipeline.Value
import Idealize.ShloMosaic.Lib.StableHlo.Predicate

/-!
  The reference program computes `Cert.Spec.result`.

  The reference first swaps the two components of every coordinate pair, so that its "first" word is the row word `v`
  and its "second" the column word `u`. It tests the four range conditions on the raw words, clamps both words into
  `[0, 127]`, and builds for each `(b, k)` the quadruple `(b, k, clip v, clip u)` — every entry passed through the
  usual "add the extent if negative" normalisation, which changes nothing on a non-negative word. A gather of single
  elements reads the heat map at that quadruple; the gather's own clamp is the identity because every entry is already
  inside its axis. The result is the conjunction of the range test and "the value read exceeds the threshold".

  Each lemma below reads one stage at one index; the last one chains them.
-/

noncomputable section

namespace Cert.RefValue

open Cert.ReferenceIdeal Cert.ReferenceIdeal.Gen Cert.ReferenceIdeal.Read Idealize.ShloMosaic Idealize.ShloMosaic.ValueIdx
  Idealize.SL.Sem Idealize.ShloMosaic.StableHlo

/-- The coordinates argument and the heat-map argument, as the generated module types them. -/
abbrev Coords := (⟨S128x64x2, .i32⟩ : BufTy).Contents (Elt Ideal)
abbrev Heat := (⟨S128x64x128x128, .f32⟩ : BufTy).Contents (Elt Ideal)

/-! ## The swapped pair, and its two components -/

/-- Reversing the last axis of the pairs: component `c` of the result is component `1 - c` of the argument. -/
theorem v0_at (x0 : Coords) (b : Fin 128) (k : Fin 64) (c : Fin 2) :
    val_main_v0 (F := Ideal) x0 (ix3 b k c) = x0 (ix3 b k c.rev) := by
  unfold val_main_v0 Host.reverse
  congr 1
  funext a
  match a with
  | ⟨0, _⟩ => rfl
  | ⟨1, _⟩ => rfl
  | ⟨2, _⟩ => rfl

/-- Component 0 of the swapped pair, flattened to `[128, 64]`: the row word. -/
theorem v2_at (x0 : Coords) (b : Fin 128) (k : Fin 64) : val_main_v2 (F := Ideal) x0 (ix2 b k) = Spec.vAt x0 b k := by
  have hb := b.isLt
  have hk := k.isLt
  have e : idx_main_v1 (idx_main_v2 (ix2 b k)) = ix3 b k 0 := by
    funext a
    refine Fin.ext ?_
    match a with
    | ⟨0, _⟩ => show (b.val * 64 + k.val) / 64 = b.val; omega
    | ⟨1, _⟩ => show (b.val * 64 + k.val) / 1 % 64 = k.val; omega
    | ⟨2, _⟩ => rfl
  rw [val_main_v2_apply, val_main_v1_apply, e, v0_at]
  rfl

/-- Component 1 of the swapped pair, flattened to `[128, 64]`: the column word. -/
theorem v4_at (x0 : Coords) (b : Fin 128) (k : Fin 64) : val_main_v4 (F := Ideal) x0 (ix2 b k) = Spec.uAt x0 b k := by
  have hb := b.isLt
  have hk := k.isLt
  have e : idx_main_v3 (idx_main_v4 (ix2 b k)) = ix3 b k 1 := by
    funext a
    refine Fin.ext ?_
    match a with
    | ⟨0, _⟩ => show (b.val * 64 + k.val) / 64 = b.val; omega
    | ⟨1, _⟩ => show (b.val * 64 + k.val) / 1 % 64 = k.val; omega
    | ⟨2, _⟩ => rfl
  rw [val_main_v4_apply, val_main_v3_apply, e, v0_at]
  rfl

/-! ## The range test and the two clamped words -/

/-- The four comparisons joined: `v > -1`, `u > -1`, `v < 128`, `u < 128`. -/
theorem v15_at (x0 : Coords) (b : Fin 128) (k : Fin 64) : val_main_v15 (F := Ideal) x0 (ix2 b k) = Spec.inRange x0 b k := by
  rw [val_main_v15_apply, val_main_v12_apply, val_main_v9_apply, val_main_v6_apply, val_main_v8_apply, val_main_v11_apply,
    val_main_v14_apply, val_main_v5_apply, val_main_v7_apply, val_main_v10_apply, val_main_v13_apply, val_main_c_apply,
    val_main_c_0_apply, val_main_c_1_apply, val_main_c_2_apply, v2_at, v4_at]
  rfl

/-- The row word clamped: `min 127 (max 0 v)`. -/
theorem v20_at (x0 : Coords) (b : Fin 128) (k : Fin 64) :
    val_main_v20 (F := Ideal) x0 (ix2 b k) = Spec.clip (Spec.vAt x0 b k) := by
  rw [val_main_v20_apply, val_main_call0_v4_apply, val_main_call0_v3_apply, val_main_c_4_apply, val_main_call0_v2_apply,
    val_main_call0_v1_apply, val_main_call0_v0_apply, val_main_c_3_apply, v2_at]
  rfl

/-- The column word clamped. -/
theorem v21_at (x0 : Coords) (b : Fin 128) (k : Fin 64) :
    val_main_v21 (F := Ideal) x0 (ix2 b k) = Spec.clip (Spec.uAt x0 b k) := by
  rw [val_main_v21_apply, val_main_call1_v4_apply, val_main_call1_v3_apply, val_main_c_6_apply, val_main_call1_v2_apply,
    val_main_call1_v1_apply, val_main_call1_v0_apply, val_main_c_5_apply, v4_at]
  rfl

/-! ## The index normalisation is the identity on a non-negative word -/

/-- "If `z < 0` then `z + m` else `z`" is `z` when `z`, read signed, is not negative. -/
theorem norm_nonneg (z m : BitVec 32) (hz : z.toNat < 2 ^ 31) :
    Scalar.select (IntOp.cmpi .slt z 0#32) (IntOp.addi z m) z = z := by
  have h : IntOp.cmpi .slt z 0#32 = 0#1 := by
    refine eq_zero_of_ne_one fun h1 => ?_
    have h2 := (Predicate.slt_iff_toNat hz (by decide)).1 h1
    exact Nat.not_lt_zero _ h2
  rw [h, select_zero]

/-- The batch counter as a column `[128, 1]`, normalised: still the counter. -/
theorem v26_at (b : Fin 128) : val_main_v26 (F := Ideal) (ix2 b (0 : Fin 1)) = BitVec.ofNat 32 b.val := by
  have hb := b.isLt
  rw [val_main_v26_apply, val_main_v23_apply, val_main_v25_apply, val_main_v22_apply, val_main_c_7_apply, val_main_v24_apply,
    val_main_c_8_apply, val_main_v17_apply, val_main_v16_apply]
  exact norm_nonneg (BitVec.ofNat 32 b.val) _ (by rw [BitVec.toNat_ofNat]; omega)

/-- The keypoint counter as a row `[1, 64]`, normalised: still the counter. -/
theorem v31_at (k : Fin 64) : val_main_v31 (F := Ideal) (ix2 (0 : Fin 1) k) = BitVec.ofNat 32 k.val := by
  have hk := k.isLt
  rw [val_main_v31_apply, val_main_v28_apply, val_main_v30_apply, val_main_v27_apply, val_main_c_9_apply, val_main_v29_apply,
    val_main_c_10_apply, val_main_v19_apply, val_main_v18_apply]
  exact norm_nonneg (BitVec.ofNat 32 k.val) _ (by rw [BitVec.toNat_ofNat]; omega)

/-- The clamped row word, normalised: unchanged, a clamped word being below 128. -/
theorem v36_at (x0 : Coords) (b : Fin 128) (k : Fin 64) :
    val_main_v36 (F := Ideal) x0 (ix2 b k) = Spec.clip (Spec.vAt x0 b k) := by
  rw [val_main_v36_apply, val_main_v33_apply, val_main_v35_apply, val_main_v32_apply, val_main_c_11_apply, val_main_v34_apply,
    val_main_c_12_apply, v20_at]
  exact norm_nonneg _ _ (by have := Spec.clip_lt (Spec.vAt x0 b k); omega)

/-- The clamped column word, normalised: unchanged. -/
theorem v41_at (x0 : Coords) (b : Fin 128) (k : Fin 64) :
    val_main_v41 (F := Ideal) x0 (ix2 b k) = Spec.clip (Spec.uAt x0 b k) := by
  rw [val_main_v41_apply, val_main_v38_apply, val_main_v40_apply, val_main_v37_apply, val_main_c_13_apply, val_main_v39_apply,
    val_main_c_14_apply, v21_at]
  exact norm_nonneg _ _ (by have := Spec.clip_lt (Spec.uAt x0 b k); omega)

/-! ## The four entries of the quadruple, each as a `[128, 64, 1]` array -/

theorem v44_at (b : Fin 128) (k : Fin 64) : val_main_v44 (F := Ideal) (ix3 b k (0 : Fin 1)) = BitVec.ofNat 32 b.val := by
  have e : idx_main_v42 (idx_main_v44 (ix3 b k (0 : Fin 1))) = ix2 b (0 : Fin 1) := by
    funext a
    match a with
    | ⟨0, _⟩ => rfl
    | ⟨1, _⟩ => rfl
  rw [val_main_v44_apply, val_main_v42_apply, e, v26_at]

theorem v45_at (b : Fin 128) (k : Fin 64) : val_main_v45 (F := Ideal) (ix3 b k (0 : Fin 1)) = BitVec.ofNat 32 k.val := by
  have e : idx_main_v43 (idx_main_v45 (ix3 b k (0 : Fin 1))) = ix2 (0 : Fin 1) k := by
    funext a
    match a with
    | ⟨0, _⟩ => rfl
    | ⟨1, _⟩ => rfl
  rw [val_main_v45_apply, val_main_v43_apply, e, v31_at]

theorem v46_at (x0 : Coords) (b : Fin 128) (k : Fin 64) :
    val_main_v46 (F := Ideal) x0 (ix3 b k (0 : Fin 1)) = Spec.clip (Spec.vAt x0 b k) := by
  have e : idx_main_v46 (ix3 b k (0 : Fin 1)) = ix2 b k := by
    funext a
    match a with
    | ⟨0, _⟩ => rfl
    | ⟨1, _⟩ => rfl
  rw [val_main_v46_apply, e, v36_at]

theorem v47_at (x0 : Coords) (b : Fin 128) (k : Fin 64) :
    val_main_v47 (F := Ideal) x0 (ix3 b k (0 : Fin 1)) = Spec.clip (Spec.uAt x0 b k) := by
  have e : idx_main_v47 (ix3 b k (0 : Fin 1)) = ix2 b k := by
    funext a
    match a with
    | ⟨0, _⟩ => rfl
    | ⟨1, _⟩ => rfl
  rw [val_main_v47_apply, e, v41_at]

/-! ## The quadruple: four unit-extent pieces joined along the last axis

  Entry `c` of the joined array lies in piece `c` (the `c` pieces before it have extent one each), at position 0. -/

/-- Off the joined axis, `(b, k, 0)` in a piece and `(b, k, c)` in the joined array have the same coordinates. -/
private theorem off_axis (b : Fin 128) (k : Fin 64) (c : Fin 4) (hr : S128x64x1.rank = S128x64x4.rank) :
    ∀ q : Fin S128x64x1.rank, q.cast hr ≠ (2 : Fin S128x64x4.rank) →
      ((ix3 b k (0 : Fin 1) : S128x64x1.Idx) q).val = ((ix3 b k c : S128x64x4.Idx) (q.cast hr)).val := by
  intro q hq
  match q with
  | ⟨0, _⟩ => rfl
  | ⟨1, _⟩ => rfl
  | ⟨2, _⟩ => exact absurd rfl hq

theorem v48_at0 (x0 : Coords) (b : Fin 128) (k : Fin 64) :
    val_main_v48 (F := Ideal) x0 (ix3 b k (0 : Fin 4)) = BitVec.ofNat 32 b.val := by
  unfold val_main_v48
  exact (concatenate_apply_piece (2 : Fin S128x64x4.rank) _ _ (ix3 b k (0 : Fin 4)) 0 (by show 0 < 4; omega) S128x64x1
    (val_main_v44 (F := Ideal)) rfl rfl 0 rfl (ix3 b k (0 : Fin 1)) (off_axis b k 0 rfl) rfl).trans (v44_at b k)

theorem v48_at1 (x0 : Coords) (b : Fin 128) (k : Fin 64) :
    val_main_v48 (F := Ideal) x0 (ix3 b k (1 : Fin 4)) = BitVec.ofNat 32 k.val := by
  unfold val_main_v48
  exact (concatenate_apply_piece (2 : Fin S128x64x4.rank) _ _ (ix3 b k (1 : Fin 4)) 1 (by show 1 < 4; omega) S128x64x1
    (val_main_v45 (F := Ideal)) rfl rfl 1 rfl (ix3 b k (0 : Fin 1)) (off_axis b k 1 rfl) rfl).trans (v45_at b k)

theorem v48_at2 (x0 : Coords) (b : Fin 128) (k : Fin 64) :
    val_main_v48 (F := Ideal) x0 (ix3 b k (2 : Fin 4)) = Spec.clip (Spec.vAt x0 b k) := by
  unfold val_main_v48
  exact (concatenate_apply_piece (2 : Fin S128x64x4.rank) _ _ (ix3 b k (2 : Fin 4)) 2 (by show 2 < 4; omega) S128x64x1
    (val_main_v46 (F := Ideal) x0) rfl rfl 2 rfl (ix3 b k (0 : Fin 1)) (off_axis b k 2 rfl) rfl).trans (v46_at x0 b k)

theorem v48_at3 (x0 : Coords) (b : Fin 128) (k : Fin 64) :
    val_main_v48 (F := Ideal) x0 (ix3 b k (3 : Fin 4)) = Spec.clip (Spec.uAt x0 b k) := by
  unfold val_main_v48
  exact (concatenate_apply_piece (2 : Fin S128x64x4.rank) _ _ (ix3 b k (3 : Fin 4)) 3 (by show 3 < 4; omega) S128x64x1
    (val_main_v47 (F := Ideal) x0) rfl rfl 3 rfl (ix3 b k (0 : Fin 1)) (off_axis b k 3 rfl) rfl).trans (v47_at x0 b k)

/-! ## The gather reads the heat map of `(b, k)` at the clamped (row, column) -/

theorem v49_at (x0 : Coords) (x1 : Heat) (b : Fin 128) (k : Fin 64) :
    val_main_v49 (F := Ideal) x0 x1 (ix2 b k) = Spec.picked x0 x1 b k := by
  have hb := b.isLt
  have hk := k.isLt
  unfold val_main_v49
  rw [LibGather4.gather_point4 _ rfl rfl rfl rfl rfl (by decide) (by decide) (by decide) (by decide) x1
    (val_main_v48 (F := Ideal) x0) b k, v48_at0, v48_at1, v48_at2, v48_at3,
    -- the two counters are below their extents, so the gather's clamp leaves them alone
    LibGather4.clampTo_of_lt 128 _ (BitVec.ofNat 32 b.val) b.val (Predicate.toInt_ofNat_small _ (by omega)) hb,
    LibGather4.clampTo_of_lt 64 _ (BitVec.ofNat 32 k.val) k.val (Predicate.toInt_ofNat_small _ (by omega)) hk,
    -- and a clamped word is below 128 and reads the same signed
    LibGather4.clampTo_of_lt 128 _ (Spec.clip (Spec.vAt x0 b k)) _ (Spec.clip_toInt _) (Spec.clip_lt _),
    LibGather4.clampTo_of_lt 128 _ (Spec.clip (Spec.uAt x0 b k)) _ (Spec.clip_toInt _) (Spec.clip_lt _)]
  rfl

/-! ## The result -/

/-- The reference's result is the specification's, index by index. -/
theorem ref_result (x0 : (⟨Cert.ReferenceIdeal.S128x64x2, .i32⟩ : BufTy).Contents (Elt Ideal)) (x1 : (⟨Cert.ReferenceIdeal.S128x64x128x128, .f32⟩ : BufTy).Contents (Elt Ideal)) :
    Cert.ReferenceIdeal.Read.val_main_v52 (F := Ideal) x0 x1 = Cert.Spec.result x0 x1 := by
  funext i
  obtain ⟨b, k, rfl⟩ : ∃ (b : Fin 128) (k : Fin 64), i = ix2 b k := ⟨i 0, i 1, eq_ix2 i⟩
  rw [val_main_v52_apply, val_main_v51_apply, val_main_v50_apply, val_main_cst_apply, v15_at, v49_at]
  rfl

end Cert.RefValue

end
-- ==== Proof.lean ====
/-
  The kernel reads, for every batch entry b and keypoint k, a heat map at the row and column its two coordinate words
  name, both clamped into [0, 127], and answers whether both words were in [0, 127] and the value read exceeds a
  threshold.  The reference gathers that one element; the kernel has no gather: it walks each batch block's heat maps
  in eight tiles of sixteen rows, multiplies a tile by a one-hot row mask and a one-hot column mask, sums, and adds the
  partial sums in a scratch block, reading the finished sum at the eighth tile.

  Over the extended reals a product with the mask value 0 is 0 and with 1 is the factor itself, so each partial sum is
  the element at the clamped (row, column) when that row lies in the tile and 0 otherwise, and the eight partial sums
  add up to that element: no finiteness of the heat maps is used.  The range tests and the threshold test are the same
  words and the same float literal on both sides.  Both programs therefore end with the one function `Cert.Spec.result`
  of their argument arrays.

  The three frames are the generated frame runs (the reference's is its generated run with the result dropped); the
  idealization rewrote no operation, so `preserves` is `True`.
-/
import proofs.«405384_j41841571398294_1_alg».proof.Defs
import proofs.«405384_j41841571398294_1_alg».proof.Proof.Gen.Kernel
import proofs.«405384_j41841571398294_1_alg».proof.Proof.Gen.Kernel.Skeleton
import proofs.«405384_j41841571398294_1_alg».proof.Proof.Gen.Kernel.Launch
import proofs.«405384_j41841571398294_1_alg».proof.Proof.Gen.Kernel.Points
import proofs.«405384_j41841571398294_1_alg».proof.Proof.Gen.Kernel.Frame
import proofs.«405384_j41841571398294_1_alg».proof.Proof.Gen.KernelIdeal
import proofs.«405384_j41841571398294_1_alg».proof.Proof.Gen.KernelIdeal.Skeleton
import proofs.«405384_j41841571398294_1_alg».proof.Proof.Gen.KernelIdeal.Launch
import proofs.«405384_j41841571398294_1_alg».proof.Proof.Gen.KernelIdeal.Points
import proofs.«405384_j41841571398294_1_alg».proof.Proof.Gen.KernelIdeal.Frame
import proofs.«405384_j41841571398294_1_alg».proof.Proof.Gen.ReferenceIdeal
import proofs.«405384_j41841571398294_1_alg».proof.Proof.Gen.ReferenceIdeal.Run
import proofs.«405384_j41841571398294_1_alg».proof.Proof.Gen.ReferenceIdeal.Read
import proofs.«405384_j41841571398294_1_alg».proof.Proof.Gen.Pre_finite_inputs
import proofs.«405384_j41841571398294_1_alg».proof.Proof.Final
import proofs.«405384_j41841571398294_1_alg».proof.Proof.RefValue
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with `Cert.Spec.result` of arguments that agree. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), Cert.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v52_eq, Cert.RefValue.ref_result, (hagree c).1, (hagree c).2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
